-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S4096x512 : Shape := ⟨2, ![4096, 512]⟩
abbrev S8x4096 : Shape := ⟨2, ![8, 4096]⟩
abbrev S8 : Shape := ⟨1, ![8]⟩
abbrev S_ : Shape := ⟨0, ![]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S8x512x4096 .f32) (main_arg1 : FVec F S4096x512 .f32) (main_arg2 : IVec S8x4096 32) (main_arg3 : IVec S8 32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S8x512x4096 : Shape := ⟨3, ![8, 512, 4096]⟩
abbrev S4096x512 : Shape := ⟨2, ![4096, 512]⟩
abbrev S8x4096 : Shape := ⟨2, ![8, 4096]⟩
abbrev S8 : Shape := ⟨1, ![8]⟩
abbrev S32768 : Shape := ⟨1, ![32768]⟩
abbrev S_ : Shape := ⟨0, ![]⟩
abbrev S32768x1 : Shape := ⟨2, ![32768, 1]⟩
abbrev S32768x512 : Shape := ⟨2, ![32768, 512]⟩
abbrev S4096 : Shape := ⟨1, ![4096]⟩
abbrev S1x4096 : Shape := ⟨2, ![1, 4096]⟩
abbrev S64x1x128 : Shape := ⟨3, ![64, 1, 128]⟩
abbrev S1x512x512 : Shape := ⟨3, ![1, 512, 512]⟩
abbrev S512x512 : Shape := ⟨2, ![512, 512]⟩
abbrev S1x1x128 : Shape := ⟨3, ![1, 1, 128]⟩
abbrev S512 : Shape := ⟨1, ![512]⟩
abbrev S512x1 : Shape := ⟨2, ![512, 1]⟩
abbrev S512x4096 : Shape := ⟨2, ![512, 4096]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩

abbrev nBuf : Space → Nat
  | .hbm => 31
  | .vmem => 10
  | .smem => 1
  | _ => 0

abbrev bufTy : (tb : Table) → Fin (tcTables nBuf tb) → BufTy
  | .hbm, ⟨0, _⟩ => ⟨S8x512x4096, .f32⟩
  | .hbm, ⟨1, _⟩ => ⟨S4096x512, .f32⟩
  | .hbm, ⟨2, _⟩ => ⟨S8x4096, .i32⟩
  | .hbm, ⟨3, _⟩ => ⟨S32768, .i32⟩
  | .hbm, ⟨4, _⟩ => ⟨S4096x512, .bf16⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S32768x512, .bf16⟩
  | .hbm, ⟨14, _⟩ => ⟨S4096x512, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S64x1x128, .f32⟩
  | .hbm, ⟨19, _⟩ => ⟨S64x1x128, .f32⟩
  | .hbm, ⟨20, _⟩ => ⟨S64x1x1, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S64x1x1, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S4096x512, .bf16⟩
  | .local _ .vmem, ⟨3, _⟩ => ⟨S1x4096, .f32⟩
  | .local _ .vmem, ⟨4, _⟩ => ⟨S512x512, .bf16⟩
  | .local _ .vmem, ⟨5, _⟩ => ⟨S512x512, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .smem, ⟨0, _⟩ => ⟨S8, .i32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v47 : Index := Scalar.indexCast arg0
  ![v47.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8x4096_S32768 : S8x4096.ShapeCasts S32768
  bitsLt_bf16_f32 : FTy.bits .bf16 < FTy.bits .f32
  bcast_S_S32768 : S_.BroadcastsInDim S32768 (![] : Fin 0 → Fin S32768.rank)
  bcast_S32768_S32768x1_0 : S32768.BroadcastsInDim S32768x1 (![0] : Fin 1 → Fin S32768x1.rank)
  reducesTo_S4096x512_S4096_d1 : S4096x512.ReducesTo [1] S4096
  h_S_ : 0 < S_.numel
  shapeCasts_S4096_S1x4096 : S4096.ShapeCasts S1x4096
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  transposes_S512x512_p1_0_S512x512 : S512x512.Transposes [1, 0] S512x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x512_S512 : S512x512.Reduces [1] S512
  shapeCasts_S512_S512x1 : S512.ShapeCasts S512x1
  broadcasts_S512x1_S512x4096 : S512x1.Broadcasts S512x4096
  broadcasts_S1x4096_S512x4096 : S1x4096.Broadcasts S512x4096
  reduces_S512x4096_S512 : S512x4096.Reduces [1] S512
  iota_S512x1_d0_w32 : S512x1.Iotas .tc 32 [0]
  numel1_S1 : S1.numel = 1
  natLt_1_32 : 1 < 32
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S64x1x128_S64x1x1_0_0_0 : S64x1x128.Slices ![0, 0, 0] S64x1x1
  shapeCasts_S64x1x1_S64 : S64x1x1.ShapeCasts S64
  reducesTo_S64_S_d0 : S64.ReducesTo [0] S_
  gather_S4096x512_S32768x1_S32768x512_1_0_n_n_0_1_1512_wf : GatherDims.WF S4096x512 S32768x1 S32768x512 [1] [0] [] [0] [] 1 ![1, 512]
  dot_S512x512_S4096x512_S512x4096_1_1_0_0_n_n_wf : DotDims.WF S512x512 S4096x512 S512x4096 [1] [1] [0] [0] [] []
  dot_S512x4096_S4096x512_S512x512_1_0_0_1_n_n_wf : DotDims.WF S512x4096 S4096x512 S512x512 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x4096.size a
  hwx0_0 : ∀ i : grid0.Coords, EltTy.bits .f32 = 32 ∨ (Rect.block (s := S8x512x4096) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S32768x512.size a
  hwx0_3 : ∀ i : grid0.Coords, EltTy.bits .bf16 = 32 ∨ (Rect.block (s := S32768x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S64x1x128.size a
  hwx0_4 : ∀ i : grid0.Coords, EltTy.bits .f32 = 32 ∨ (Rect.block (s := S64x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S64x1x128.size a
  hwx0_5 : ∀ i : grid0.Coords, EltTy.bits .f32 = 32 ∨ (Rect.block (s := S64x1x128) S1x1x128.size (cc0_transform_5 i) (hinb0_5 i)).WholeWords (EltTy.packing .f32)

variable [Facts₀]

def gather_S4096x512_S32768x1_S32768x512_1_0_n_n_0_1_1512 : GatherDims S4096x512 S32768x1 S32768x512 where
  offsetDims := [1]
  collapsedSliceDims := [0]
  operandBatchingDims := []
  startIndicesBatchingDims := []
  startIndexMap := [0]
  indexVectorDim := 1
  sliceSizes := ![1, 512]
  wf := gather_S4096x512_S32768x1_S32768x512_1_0_n_n_0_1_1512_wf
def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev spec0_0 : Pipeline.WinSpec sig grid0.rank :=
  Pipeline.WinSpec.ofSpec (Memref.whole main_arg0) S1x512x512.size reads0_0 false false 2 stage0_0 sem0_0 nbuf0_0 hstage0_0

abbrev spec0_1 : Pipeline.WinSpec sig grid0.rank :=
  Pipeline.WinSpec.ofSpec (Memref.whole main_v1) S4096x512.size reads0_1 false true 1 stage0_1 sem0_1 nbuf0_1 hstage0_1

abbrev spec0_2 : Pipeline.WinSpec sig grid0.rank :=
  Pipeline.WinSpec.ofSpec (Memref.whole main_v11) S1x4096.size reads0_2 false true 1 stage0_2 sem0_2 nbuf0_2 hstage0_2

abbrev spec0_3 : Pipeline.WinSpec sig grid0.rank :=
  Pipeline.WinSpec.ofSpec (Memref.whole main_v8) S512x512.size reads0_3 false false 2 stage0_3 sem0_3 nbuf0_3 hstage0_3

abbrev spec0_4 : Pipeline.WinSpec sig grid0.rank :=
  Pipeline.WinSpec.ofSpec (Memref.whole main_v12_0) S1x1x128.size reads0_4 true false 2 stage0_4 sem0_4 nbuf0_4 hstage0_4

abbrev spec0_5 : Pipeline.WinSpec sig grid0.rank :=
  Pipeline.WinSpec.ofSpec (Memref.whole main_v12_1) S1x1x128.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 | 4 => cc0_transform_4 | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S8x512x4096 : Shape := ⟨3, ![8, 512, 4096]⟩
abbrev S4096x512 : Shape := ⟨2, ![4096, 512]⟩
abbrev S8x4096 : Shape := ⟨2, ![8, 4096]⟩
abbrev S8 : Shape := ⟨1, ![8]⟩
abbrev S4096 : Shape := ⟨1, ![4096]⟩
abbrev S_ : Shape := ⟨0, ![]⟩
abbrev S1x4096 : Shape := ⟨2, ![1, 4096]⟩
abbrev S8x1 : Shape := ⟨2, ![8, 1]⟩
abbrev S8x4096x512 : Shape := ⟨3, ![8, 4096, 512]⟩
abbrev S32768x512 : Shape := ⟨2, ![32768, 512]⟩
abbrev S32768 : Shape := ⟨1, ![32768]⟩
abbrev S32768x1 : Shape := ⟨2, ![32768, 1]⟩
abbrev S32768x4096 : Shape := ⟨2, ![32768, 4096]⟩
abbrev S512x4096 : Shape := ⟨2, ![512, 4096]⟩

abbrev nBuf : Space → Nat
  | .hbm => 82
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S4096x512, .f32⟩
  | .hbm, ⟨2, _⟩ => ⟨S8x4096, .i32⟩
  | .hbm, ⟨3, _⟩ => ⟨S8, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S1x4096, .i32⟩
  | .hbm, ⟨9, _⟩ => ⟨S8x1, .i32⟩
  | .hbm, ⟨10, _⟩ => ⟨S8x4096, .i32⟩
  | .hbm, ⟨11, _⟩ => ⟨S8x4096, .i32⟩
  | .hbm, ⟨12, _⟩ => ⟨S8x4096, .i1⟩
  | .hbm, ⟨13, _⟩ => ⟨S8x4096, .f32⟩
  | .hbm, ⟨14, _⟩ => ⟨S8x4096x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S4096x512, .f32⟩
  | .hbm, ⟨21, _⟩ => ⟨S_, .f32⟩
  | .hbm, ⟨22, _⟩ => ⟨S4096, .f32⟩
  | .hbm, ⟨23, _⟩ => ⟨S1x4096, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S512x4096, .f32⟩
  | .hbm, ⟨28, _⟩ => ⟨S32768x4096, .f32⟩
  | .hbm, ⟨29, _⟩ => ⟨S_, .f32⟩
  | .hbm, ⟨30, _⟩ => ⟨S32768x4096, .f32⟩
  | .hbm, ⟨31, _⟩ => ⟨S32768x4096, .f32⟩
  | .hbm, ⟨32, _⟩ => ⟨S32768x4096, .f32⟩
  | .hbm, ⟨33, _⟩ => ⟨S_, .f32⟩
  | .hbm, ⟨34, _⟩ => ⟨S32768x4096, .f32⟩
  | .hbm, ⟨35, _⟩ => ⟨S32768x4096, .f32⟩
  | .hbm, ⟨36, _⟩ => ⟨S32768x4096, .f32⟩
  | .hbm, ⟨37, _⟩ => ⟨S32768x4096, .f32⟩
  | .hbm, ⟨38, _⟩ => ⟨S_, .f32⟩
  | .hbm, ⟨39, _⟩ => ⟨S32768x4096, .f32⟩
  | .hbm, ⟨40, _⟩ => ⟨S32768x4096, .f32⟩
  | .hbm, ⟨41, _⟩ => ⟨S_, .f32⟩
  | .hbm, ⟨42, _⟩ => ⟨S32768, .f32⟩
  | .hbm, ⟨43, _⟩ => ⟨S_, .f32⟩
  | .hbm, ⟨44, _⟩ => ⟨S32768, .f32⟩
  | .hbm, ⟨45, _⟩ => ⟨S32768, .f32⟩
  | .hbm, ⟨46, _⟩ => ⟨S32768x1, .f32⟩
  | .hbm, ⟨47, _⟩ => ⟨S32768x4096, .f32⟩
  | .hbm, ⟨48, _⟩ => ⟨S32768x4096, .f32⟩
  | .hbm, ⟨49, _⟩ => ⟨S32768x4096, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S32768x4096, .f32⟩
  | .hbm, ⟨54, _⟩ => ⟨S32768x4096, .f32⟩
  | .hbm, ⟨55, _⟩ => ⟨S32768x512, .f32⟩
  | .hbm, ⟨56, _⟩ => ⟨S32768, .i32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S_, .f32⟩
  | .hbm, ⟨69, _⟩ => ⟨S32768, .f32⟩
  | .hbm, ⟨70, _⟩ => ⟨S_, .f32⟩
  | .hbm, ⟨71, _⟩ => ⟨S32768, .f32⟩
  | .hbm, ⟨72, _⟩ => ⟨S32768, .f32⟩
  | .hbm, ⟨73, _⟩ => ⟨S8x4096, .f32⟩
  | .hbm, ⟨74, _⟩ => ⟨S8x4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S8_S8x1_0 : S8.BroadcastsInDim S8x1 (![0] : Fin 1 → Fin S8x1.rank)
  bcast_S1x4096_S8x4096_0_1 : S1x4096.BroadcastsInDim S8x4096 (![0, 1] : Fin 2 → Fin S8x4096.rank)
  bcast_S8x1_S8x4096_0_1 : S8x1.BroadcastsInDim S8x4096 (![0, 1] : Fin 2 → Fin S8x4096.rank)
  transposes_S8x512x4096_S8x4096x512_0_2_1 : S8x512x4096.Transposes [0, 2, 1] S8x4096x512
  shapeCasts_S8x4096x512_S32768x512 : S8x4096x512.ShapeCasts S32768x512
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S4096x512_S4096_d1 : S4096x512.ReducesTo [1] S4096
  bcast_S32768x1_S32768x4096_0_1 : S32768x1.BroadcastsInDim S32768x4096 (![0, 1] : Fin 2 → Fin S32768x4096.rank)
  bcast_S1x4096_S32768x4096_0_1 : S1x4096.BroadcastsInDim S32768x4096 (![0, 1] : Fin 2 → Fin S32768x4096.rank)
  transposes_S4096x512_S512x4096_1_0 : S4096x512.Transposes [1, 0] S512x4096
  bcast_S_S32768x4096 : S_.BroadcastsInDim S32768x4096 (![] : Fin 0 → Fin S32768x4096.rank)
  reducesTo_S32768x4096_S32768_d1 : S32768x4096.ReducesTo [1] S32768
  bcast_S_S32768 : S_.BroadcastsInDim S32768 (![] : Fin 0 → Fin S32768.rank)
  shapeCasts_S8x4096_S32768 : S8x4096.ShapeCasts S32768
  shapeCasts_S32768_S8x4096 : S32768.ShapeCasts S8x4096
  reducesTo_S8x4096_S_d0_1 : S8x4096.ReducesTo [0, 1] S_
  dot_S32768x512_S512x4096_S32768x4096_1_0_0_1_n_n_wf : DotDims.WF S32768x512 S512x4096 S32768x4096 [1] [0] [0] [1] [] []
  dot_S32768x4096_S4096x512_S32768x512_1_0_0_1_n_n_wf : DotDims.WF S32768x4096 S4096x512 S32768x512 [1] [0] [0] [1] [] []
  gather_S4096x512_S32768x1_S32768x512_1_0_n_n_0_1_1512_wf : GatherDims.WF S4096x512 S32768x1 S32768x512 [1] [0] [] [0] [] 1 ![1, 512]

variable [Facts₀]

def dot_S32768x512_S512x4096_S32768x4096_1_0_0_1_n_n : DotDims S32768x512 S512x4096 S32768x4096 where
  lhsContracting := [1]
  rhsContracting := [0]
  lhsNonContracting := [0]
  rhsNonContracting := [1]
  lhsBatch := []
  rhsBatch := []
  wf := dot_S32768x512_S512x4096_S32768x4096_1_0_0_1_n_n_wf
def dot_S32768x4096_S4096x512_S32768x512_1_0_0_1_n_n : DotDims S32768x4096 S4096x512 S32768x512 where
  lhsContracting := [1]
  rhsContracting := [0]
  lhsNonContracting := [0]
  rhsNonContracting := [1]
  lhsBatch := []
  rhsBatch := []
  wf := dot_S32768x4096_S4096x512_S32768x512_1_0_0_1_n_n_wf
def gather_S4096x512_S32768x1_S32768x512_1_0_n_n_0_1_1512 : GatherDims S4096x512 S32768x1 S32768x512 where
  offsetDims := [1]
  collapsedSliceDims := [0]
  operandBatchingDims := []
  startIndicesBatchingDims := []
  startIndexMap := [0]
  indexVectorDim := 1
  sliceSizes := ![1, 512]
  wf := gather_S4096x512_S32768x1_S32768x512_1_0_n_n_0_1_1512_wf

class Facts : Prop extends Facts₀ where

variable [Facts]
-- ==== Proof.Spec.lean ====
/-
  The loss both programs compute, as functions of the argument arrays over the extended reals.

  Row `n = 4096·b + t` of the 32768 rows is frame `t` of batch `b`: its feature vector is `z d = X[b, d, t]`.
  Against every codebook row `C[k, ·]` the squared distance is `|z|² + |C k|² − 2 z·C k`; the distance is its
  square root after a small positive floor; the soft weights are the softmax of the negated distances; the
  reconstruction is the weighted sum of the codebook rows; the row's error is the mean over the 512 columns of
  the squared difference to a target row `G[n, ·]`. The loss is the masked sum of the row errors over the masked
  count plus a small constant; row `n` is masked in when `320·t` is below the batch's length, as signed words.

  The two programs differ in two places only, and both forms are written here:
  the cross term (the factor −2 inside the sum, or 2 outside it and subtracted), and the softmax
  (`exp (min δ − δ k)`, or `exp (−δ k / 1 − max (−δ / 1))`).
-/
import Idealize.ShloMosaic.PureOps.Ideal
import Idealize.ShloMosaic.Lib.ValueIdx
import Mathlib.Algebra.BigOperators.Group.Finset.Basic
import Mathlib.Data.EReal.Operations

noncomputable section

open scoped BigOperators

namespace Cert.VQ

open Idealize.ShloMosaic Idealize.ShloMosaic.ValueIdx

/-- The shapes of the four arrays the loss is a function of: features, codebook, target rows, lengths. -/
abbrev SX : Shape := ⟨3, ![8, 512, 4096]⟩
abbrev SC : Shape := ⟨2, ![4096, 512]⟩
abbrev SG : Shape := ⟨2, ![32768, 512]⟩
abbrev SL : Shape := ⟨1, ![8]⟩

/-! ## The float literals, as the extended reals their words denote -/

/-- The floor under the square root (the word of `1e-12`). -/
def floorLit : EReal := Ideal.ofBits .f32 0x2B8CBCCC#32
/-- `-2`, `2`, `1`, `512`, the word of `1e-8`, and the two infinities. -/
def minusTwoLit : EReal := Ideal.ofBits .f32 0xC0000000#32
def twoLit : EReal := Ideal.ofBits .f32 0x40000000#32
def oneLit : EReal := Ideal.ofBits .f32 0x3F800000#32
def dimLit : EReal := Ideal.ofBits .f32 0x44000000#32
def tinyLit : EReal := Ideal.ofBits .f32 0x322BCC77#32
def posInfLit : EReal := Ideal.ofBits .f32 0x7F800000#32
def negInfLit : EReal := Ideal.ofBits .f32 0xFF800000#32

/-! ## One row against one codebook row -/

/-- The squared distance with the factor `-2` inside the sum of products. -/
def sqDistIn (z ck : Fin 512 → EReal) : EReal :=
  ((∑ d, z d * z d) + ∑ d, ck d * ck d) + ∑ d, (minusTwoLit * z d) * ck d

/-- The squared distance with `2` times the sum of products subtracted. -/
def sqDistOut (z ck : Fin 512 → EReal) : EReal :=
  ((∑ d, z d * z d) + ∑ d, ck d * ck d) - twoLit * ∑ d, z d * ck d

/-- The distance: the square root above the floor. -/
def dist (q : EReal) : EReal := Ideal.sqrt (max q floorLit)

/-! ## The soft weights of one row's 4096 distances -/

/-- Softmax of the negated distances through the row's minimum. -/
def softMin (δ : Fin 4096 → EReal) (k : Fin 4096) : EReal :=
  Ideal.div (Ideal.exp ((Finset.univ : Finset (Fin 4096)).fold min posInfLit δ - δ k))
    (∑ k', Ideal.exp ((Finset.univ : Finset (Fin 4096)).fold min posInfLit δ - δ k'))

/-- The negated distance over the temperature `1`. -/
def negOver (δ : Fin 4096 → EReal) (k : Fin 4096) : EReal := Ideal.div (-(δ k)) oneLit

/-- The row's maximum of those, guarded below by `-∞`. -/
def negMax (δ : Fin 4096 → EReal) : EReal :=
  max negInfLit ((Finset.univ : Finset (Fin 4096)).fold max negInfLit (negOver δ))

/-- Softmax of the negated distances through their maximum. -/
def softMax (δ : Fin 4096 → EReal) (k : Fin 4096) : EReal :=
  Ideal.div (Ideal.exp (negOver δ k - negMax δ)) (∑ k', Ideal.exp (negOver δ k' - negMax δ))

/-! ## One row's error -/

/-- The mean over the columns of the squared difference between the reconstruction and the target row. -/
def rowErr (sw : Fin 4096 → EReal) (C : Fin 4096 → Fin 512 → EReal) (tg : Fin 512 → EReal) : EReal :=
  Ideal.div (∑ d, ((∑ k, sw k * C k d) - tg d) * ((∑ k, sw k * C k d) - tg d)) dimLit

/-- The row's error, cross term inside and softmax through the minimum. -/
def rowInMin (z : Fin 512 → EReal) (C : Fin 4096 → Fin 512 → EReal) (tg : Fin 512 → EReal) : EReal :=
  rowErr (softMin fun k => dist (sqDistIn z (C k))) C tg

/-- The row's error, cross term outside and softmax through the maximum. -/
def rowOutMax (z : Fin 512 → EReal) (C : Fin 4096 → Fin 512 → EReal) (tg : Fin 512 → EReal) : EReal :=
  rowErr (softMax fun k => dist (sqDistOut z (C k))) C tg

/-! ## The rows, the mask, the loss -/

/-- Row `n` is frame `n % 4096` of batch `n / 4096`. -/
def batchOf (n : Fin 32768) : Fin 8 := ⟨n.val / 4096, by have := n.isLt; omega⟩
def frameOf (n : Fin 32768) : Fin 4096 := ⟨n.val % 4096, Nat.mod_lt _ (by norm_num)⟩

/-- Row `n`'s feature vector, codebook row `k`, target row `n`. -/
def featRow (X : SX.Idx → EReal) (n : Fin 32768) (d : Fin 512) : EReal := X (ix3 (batchOf n) d (frameOf n))
def codeRow (C : SC.Idx → EReal) (k : Fin 4096) (d : Fin 512) : EReal := C (ix2 k d)
def tgtRow (G : SG.Idx → EReal) (n : Fin 32768) (d : Fin 512) : EReal := G (ix2 n d)

/-- Row `n` counts when its frame's first sample, `320 · t` as a 32-bit word, is below the batch's length, signed. -/
def validBit (lens : SL.Idx → BitVec 32) (n : Fin 32768) : BitVec 1 :=
  IntOp.cmpi .slt (BitVec.ofNat 32 (frameOf n).val * 320#32) (lens (ix1 (batchOf n)))

/-- The mask as a number: one or zero. -/
def maskOf (lens : SL.Idx → BitVec 32) (n : Fin 32768) : EReal := (((validBit lens n).toNat : ℝ) : EReal)

/-- The masked sum of the rows' values over the masked count plus the small constant. -/
def lossOf (val msk : Fin 32768 → EReal) : EReal :=
  Ideal.div (∑ n, val n * msk n) ((∑ n, msk n) + tinyLit)

/-- The loss in the first program's form. -/
def lossInMin (X : SX.Idx → EReal) (C : SC.Idx → EReal) (G : SG.Idx → EReal) (lens : SL.Idx → BitVec 32) : EReal :=
  lossOf (fun n => rowInMin (featRow X n) (codeRow C) (tgtRow G n)) (maskOf lens)

/-- The loss in the second program's form. -/
def lossOutMax (X : SX.Idx → EReal) (C : SC.Idx → EReal) (G : SG.Idx → EReal) (lens : SL.Idx → BitVec 32) : EReal :=
  lossOf (fun n => rowOutMax (featRow X n) (codeRow C) (tgtRow G n)) (maskOf lens)

end Cert.VQ

end
-- ==== Proof.Algebra.lean ====
/-
  The two forms of the loss agree when the features and the codebook hold real numbers.
-/
import proofs.«411264_j42391327212291_3_alg».proof.Proof.Spec
import Mathlib.Data.EReal.Inv
import Mathlib.Algebra.BigOperators.Ring.Finset
import Mathlib.Tactic.Ring
import Mathlib.Tactic.NormNum

noncomputable section

open scoped BigOperators

namespace Cert.VQ

open Idealize.ShloMosaic Idealize.ShloMosaic.ValueIdx

/-! ## The literals the two forms differ by -/

/-- The word of `-2` denotes the real `-2`. -/
theorem minusTwoLit_eq : minusTwoLit = ((-2 : ℝ) : EReal) := by
  simp [minusTwoLit, Ideal.ofBits, Ideal.ieee, -EReal.coe_mul]; norm_num

/-- The word of `2` denotes the real `2`. -/
theorem twoLit_eq : twoLit = ((2 : ℝ) : EReal) := by
  simp [twoLit, Ideal.ofBits, Ideal.ieee, -EReal.coe_mul]; norm_num

/-- The word of `1` denotes `1`. -/
theorem oneLit_eq : oneLit = 1 := by
  simp [oneLit, Ideal.ofBits, Ideal.ieee, -EReal.coe_mul]; norm_num

/-- The word of `+∞` denotes `⊤`. -/
theorem posInfLit_eq : posInfLit = ⊤ := by
  simp [posInfLit, Ideal.ofBits, Ideal.ieee]

/-- The word of `-∞` denotes `⊥`. -/
theorem negInfLit_eq : negInfLit = ⊥ := by
  simp [negInfLit, Ideal.ofBits, Ideal.ieee]

/-! ## The squared distance -/

/-- The coercion of the reals into the extended reals goes through a finite sum. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real vectors the cross term with the factor `-2` inside the sum is the negated double of the sum of
    products, so the two squared distances agree. The reals are needed: distributivity fails at the infinities. -/
theorem sqDistIn_eq_sqDistOut (z ck : Fin 512 → EReal)
    (hz : ∀ d, ∃ r : ℝ, z d = (r : EReal)) (hc : ∀ d, ∃ r : ℝ, ck d = (r : EReal)) :
    sqDistIn z ck = sqDistOut z ck := by
  choose zr hzr using hz
  choose cr hcr using hc
  have hcross : (∑ d, (minusTwoLit * z d) * ck d) = -(twoLit * ∑ d, z d * ck d) := by
    rw [minusTwoLit_eq, twoLit_eq]
    simp only [hzr, hcr, ← EReal.coe_mul, ← coe_finsum, ← EReal.coe_neg]
    congr 1
    rw [Finset.mul_sum, ← Finset.sum_neg_distrib]
    refine Finset.sum_congr rfl fun d _ => ?_
    ring
  unfold sqDistIn sqDistOut
  rw [sub_eq_add_neg, hcross]

/-! ## The softmax -/

/-- Division by the literal one changes nothing. -/
theorem div_oneLit (x : EReal) : Ideal.div x oneLit = x := by
  rw [oneLit_eq, Ideal.div, if_neg one_ne_zero, inv_one, mul_one]

/-- The fold of `max` from `⊥` over the negated values is the negation of the fold of `min` from `⊤`. -/
theorem fold_max_neg {ι : Type*} (s : Finset ι) (f : ι → EReal) :
    s.fold max ⊥ (fun k => -(f k)) = -(s.fold min ⊤ f) := by
  classical
  induction s using Finset.induction_on with
  | empty => rw [Finset.fold_empty, Finset.fold_empty, EReal.neg_top]
  | insert a s ha ih => rw [Finset.fold_insert ha, Finset.fold_insert ha, ih, EReal.max_neg_neg]

/-- The negated value over the temperature one is the negated value. -/
theorem negOver_eq (δ : Fin 4096 → EReal) : negOver δ = fun k => -(δ k) := by
  funext k
  rw [negOver, div_oneLit]

/-- The guarded maximum of the negated values is the negated minimum. -/
theorem negMax_eq (δ : Fin 4096 → EReal) :
    negMax δ = -((Finset.univ : Finset (Fin 4096)).fold min posInfLit δ) := by
  rw [negMax, negOver_eq, negInfLit_eq, posInfLit_eq, fold_max_neg, bot_sup_eq]

/-- The exponent of the second form is the exponent of the first. -/
theorem neg_sub_neg_eq (a m : EReal) : -a - -m = m - a := by
  rw [sub_eq_add_neg, neg_neg, add_comm, ← sub_eq_add_neg]

/-- The two softmaxes agree on every row of extended reals. -/
theorem softMin_eq_softMax (δ : Fin 4096 → EReal) : softMin δ = softMax δ := by
  funext k
  have hexp : ∀ k', negOver δ k' - negMax δ
      = (Finset.univ : Finset (Fin 4096)).fold min posInfLit δ - δ k' := by
    intro k'
    rw [negMax_eq, negOver_eq, neg_sub_neg_eq]
  unfold softMin softMax
  simp only [hexp]

/-! ## One row, and the loss -/

/-- With a real feature vector and a real codebook the two forms of a row's error agree. -/
theorem rowInMin_eq_rowOutMax (z : Fin 512 → EReal) (C : Fin 4096 → Fin 512 → EReal) (tg : Fin 512 → EReal)
    (hz : ∀ d, ∃ r : ℝ, z d = (r : EReal)) (hC : ∀ k d, ∃ r : ℝ, C k d = (r : EReal)) :
    rowInMin z C tg = rowOutMax z C tg := by
  have hd : (fun k => dist (sqDistIn z (C k))) = fun k => dist (sqDistOut z (C k)) := by
    funext k
    rw [sqDistIn_eq_sqDistOut z (C k) hz (hC k)]
  rw [rowInMin, rowOutMax, hd, softMin_eq_softMax]

/-- With every feature and every codebook entry a real number, the loss with the cross term inside the sum and the
    softmax through the minimum is the loss with the cross term outside and the softmax through the maximum. -/
theorem lossInMin_eq_lossOutMax (X : SX.Idx → EReal) (C : SC.Idx → EReal) (G : SG.Idx → EReal) (lens : SL.Idx → BitVec 32)
    (hX : ∀ i, ∃ r : ℝ, X i = (r : EReal)) (hC : ∀ i, ∃ r : ℝ, C i = (r : EReal)) :
    lossInMin X C G lens = lossOutMax X C G lens := by
  have hrow : (fun n => rowInMin (featRow X n) (codeRow C) (tgtRow G n))
      = fun n => rowOutMax (featRow X n) (codeRow C) (tgtRow G n) := by
    funext n
    exact rowInMin_eq_rowOutMax _ _ _ (fun d => hX _) (fun k d => hC _)
  rw [lossInMin, lossOutMax, hrow]

end Cert.VQ

end
-- ==== Proof.Finite.lean ====
/-
  The precondition read: every feature and every codebook entry is a real number.
-/
import proofs.«411264_j42391327212291_3_alg».proof.Pre_finite_inputs
import proofs.«411264_j42391327212291_3_alg».proof.Proof.Gen.Pre_finite_inputs
import Idealize.ShloMosaic.PureOps.Ideal
import Idealize.ShloMosaic.Lib.ReduceAll

noncomputable section

namespace Cert.Finite

open Idealize.ShloMosaic Cert.Pre_finite_inputs

/-- The rank-0 shape has exactly one index: there is no axis to choose a coordinate on. -/
instance subsingleton_scalar_idx : Subsingleton S_.Idx := ⟨fun a b => funext fun d => d.elim0⟩

/-- The word `0x7F800000` denotes `+∞`. -/
theorem posInf_eq_top : Ideal.ofBits .f32 0x7F800000#32 = (⊤ : EReal) := by
  simp [Ideal.ofBits, Ideal.ieee]

/-- An extended real whose absolute value `max x (-x)` is strictly below `+∞` is a real number:
    at `⊥` the negation is `⊤`, at `⊤` the value itself is, and both make the maximum `⊤`. -/
theorem real_of_abs_lt_top (x : EReal) (hx : max x (-x) < (⊤ : EReal)) : ∃ r : ℝ, x = (r : EReal) := by
  induction x using EReal.rec with
  | bot => exact absurd hx (by simp)
  | top => exact absurd hx (by simp)
  | coe r => exact ⟨r, rfl⟩

/-- The element fact of the predicate: the ordered comparison `|x| < +∞` came out as the bit 1. -/
theorem real_of_cmp (x : EReal)
    (hx : Ideal.cmp .olt (max x (-x)) (Ideal.ofBits .f32 0x7F800000#32) = 1#1) : ∃ r : ℝ, x = (r : EReal) := by
  rw [posInf_eq_top] at hx
  refine real_of_abs_lt_top x ?_
  by_contra hn
  simp [Ideal.cmp, hn] at hx

/-- If the printed predicate is all ones on the four arrays, the two float arrays hold real numbers only. -/
theorem real_of_pre (x0 : FVec Ideal S8x512x4096 .f32) (x1 : FVec Ideal S4096x512 .f32) (x2 : IVec S8x4096 32) (x3 : IVec S8 32)
    (h : Cert.Pre_finite_inputs.fn (F := Ideal) x0 x1 x2 x3 = fun _ => 1#1) :
    (∀ i, ∃ r : ℝ, x0 i = (r : EReal)) ∧ (∀ i, ∃ r : ℝ, x1 i = (r : EReal)) := by
  -- the predicate's value at the one index of the rank-0 result
  have h0 := congrFun h (fun d => d.elim0)
  dsimp only [Cert.Pre_finite_inputs.fn] at h0
  -- the final `and` of the two reductions
  obtain ⟨ha, hb⟩ := IntOp.andi_eq_one.1 h0
  -- each reduction by `and` over every axis gives the compared bit at every index
  exact ⟨fun i => real_of_cmp (x0 i) (Host.reduce_andi_all _ _ _ _ _ ha i),
    fun i => real_of_cmp (x1 i) (Host.reduce_andi_all _ _ _ _ _ hb i)⟩

end Cert.Finite

end
-- ==== Proof.RefRow.lean ====
/-
  One row of the reference: the mean squared difference between the reconstruction and the target row.
-/
import proofs.«411264_j42391327212291_3_alg».proof.Proof.Gen.ReferenceIdeal.Run
import proofs.«411264_j42391327212291_3_alg».proof.Proof.Gen.ReferenceIdeal.Read
import proofs.«411264_j42391327212291_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## The composed index functions, as coordinates -/

/-- Row `n`, column `d` of the flattened transposed features is the feature array at batch `n / 4096`, channel `d`,
    frame `n % 4096`. -/
theorem idx_feat (n : Fin 32768) (d : Fin 512) :
    idx_main_v9 (idx_main_v10 (ix2 n d)) = ix3 (Cert.VQ.batchOf n) d (Cert.VQ.frameOf n) := by
  have hn := n.isLt
  have hd := d.isLt
  funext a
  apply Fin.ext
  match a with
  | ⟨0, _⟩ => show (n.val * 512 + d.val) / 2097152 = n.val / 4096; omega
  | ⟨1, _⟩ => show (n.val * 512 + d.val) % 512 = d.val; omega
  | ⟨2, _⟩ => show (n.val * 512 + d.val) / 512 % 4096 = n.val % 4096; omega

/-- The features' row `n` at column `d`. -/
theorem feat_apply (x0 : (⟨S8x512x4096, .f32⟩ : BufTy).Contents (Elt Ideal)) (n : Fin 32768) (d : Fin 512) :
    val_main_v10 (F := Ideal) x0 (ix2 n d) = Cert.VQ.featRow x0 n d := by
  rw [val_main_v10_apply, val_main_v9_apply, idx_feat]
  rfl

/-- The squared-norm sum of row `n` runs over that row's columns. -/
theorem idx_znorm (n : Fin 32768) (d : Fin 512) : idx_main_v12 (ix1 n) d = ix2 n d :=
  funext fun a => Fin.ext (by match a with | ⟨0, _⟩ => rfl | ⟨1, _⟩ => rfl)

/-- The row's squared norm, broadcast along the codebook axis, is read at the row. -/
theorem idx_zbcast (n : Fin 32768) (k : Fin 4096) : idx_main_v13 (idx_main_v17 (ix2 n k)) = ix1 n :=
  funext fun a => Fin.ext (by match a with | ⟨0, _⟩ => rfl)

/-- The squared-norm sum of codebook row `k` runs over that row's columns. -/
theorem idx_cnorm (k : Fin 4096) (d : Fin 512) : idx_main_v15 (ix1 k) d = ix2 k d :=
  funext fun a => Fin.ext (by match a with | ⟨0, _⟩ => rfl | ⟨1, _⟩ => rfl)

/-- The codebook rows' squared norms, broadcast along the rows, are read at the codebook row. -/
theorem idx_cbcast (n : Fin 32768) (k : Fin 4096) : idx_main_v16 (idx_main_v18 (ix2 n k)) = ix1 k :=
  funext fun a => Fin.ext (by match a with | ⟨0, _⟩ => rfl)

/-- The cross term's left factor is the row's column `d`. -/
theorem idx_crossL (n : Fin 32768) (k : Fin 4096) (d : Fin 512) : lidx_main_v21 (ix2 n k) d = ix2 n d :=
  funext fun a => Fin.ext (by match a with | ⟨0, _⟩ => rfl | ⟨1, _⟩ => rfl)

/-- The cross term's right factor, through the transpose, is the codebook at `(k, d)`. -/
theorem idx_crossR (n : Fin 32768) (k : Fin 4096) (d : Fin 512) :
    idx_main_v20 (ridx_main_v21 (ix2 n k) d) = ix2 k d :=
  funext fun a => Fin.ext (by match a with | ⟨0, _⟩ => rfl | ⟨1, _⟩ => rfl)

/-- The row maximum, broadcast along the codebook axis, is read at the row. -/
theorem idx_maxbcast (n : Fin 32768) (k : Fin 4096) : idx_main_v34 (idx_main_v35 (ix2 n k)) = ix1 n :=
  funext fun a => Fin.ext (by match a with | ⟨0, _⟩ => rfl)

/-- The denominator's sum of row `n` runs over the codebook axis. -/
theorem idx_den (n : Fin 32768) (k : Fin 4096) : idx_main_v38 (ix1 n) k = ix2 n k :=
  funext fun a => Fin.ext (by match a with | ⟨0, _⟩ => rfl | ⟨1, _⟩ => rfl)

/-- The denominator, broadcast along the codebook axis, is read at the row. -/
theorem idx_denbcast (n : Fin 32768) (k : Fin 4096) : idx_main_v39 (idx_main_v40 (ix2 n k)) = ix1 n :=
  funext fun a => Fin.ext (by match a with | ⟨0, _⟩ => rfl)

/-- The reconstruction's left factor is the row's weight `k`. -/
theorem idx_reconL (n : Fin 32768) (d : Fin 512) (k : Fin 4096) : lidx_main_v42 (ix2 n d) k = ix2 n k :=
  funext fun a => Fin.ext (by match a with | ⟨0, _⟩ => rfl | ⟨1, _⟩ => rfl)

/-- The reconstruction's right factor is the codebook at `(k, d)`. -/
theorem idx_reconR (n : Fin 32768) (d : Fin 512) (k : Fin 4096) : ridx_main_v42 (ix2 n d) k = ix2 k d :=
  funext fun a => Fin.ext (by match a with | ⟨0, _⟩ => rfl | ⟨1, _⟩ => rfl)

/-- The row error's sum of row `n` runs over that row's columns. -/
theorem idx_err (n : Fin 32768) (d : Fin 512) : idx_main_v53 (ix1 n) d = ix2 n d :=
  funext fun a => Fin.ext (by match a with | ⟨0, _⟩ => rfl | ⟨1, _⟩ => rfl)

/-! ## The squared distance of row `n` to codebook row `k` -/

/-- The row's squared norm. -/
theorem znorm_apply (x0 : (⟨S8x512x4096, .f32⟩ : BufTy).Contents (Elt Ideal)) (n : Fin 32768) :
    val_main_v12 (F := Ideal) x0 (ix1 n) = ∑ d : Fin 512, Cert.VQ.featRow x0 n d * Cert.VQ.featRow x0 n d := by
  rw [val_main_v12_apply, val_main_cst_apply, Ideal.ofBits_def, Ideal.ofBits_zero_f32, zero_add]
  refine Finset.sum_congr rfl fun d _ => ?_
  rw [idx_znorm, val_main_v11_apply, feat_apply, Ideal.mulf_def]

/-- The codebook row's squared norm. -/
theorem cnorm_apply (x1 : (⟨S4096x512, .f32⟩ : BufTy).Contents (Elt Ideal)) (k : Fin 4096) :
    val_main_v15 (F := Ideal) x1 (ix1 k) = ∑ d : Fin 512, Cert.VQ.codeRow x1 k d * Cert.VQ.codeRow x1 k d := by
  rw [val_main_v15_apply, val_main_cst_0_apply, Ideal.ofBits_def, Ideal.ofBits_zero_f32, zero_add]
  refine Finset.sum_congr rfl fun d _ => ?_
  rw [idx_cnorm, val_main_v14_apply, Ideal.mulf_def]
  rfl

/-- The sum of products of the row with the codebook row. -/
theorem cross_apply (x0 : (⟨S8x512x4096, .f32⟩ : BufTy).Contents (Elt Ideal)) (x1 : (⟨S4096x512, .f32⟩ : BufTy).Contents (Elt Ideal))
    (n : Fin 32768) (k : Fin 4096) :
    val_main_v21 (F := Ideal) x0 x1 (ix2 n k) = ∑ d : Fin 512, Cert.VQ.featRow x0 n d * Cert.VQ.codeRow x1 k d := by
  rw [val_main_v21_apply]
  refine Finset.sum_congr rfl fun d _ => ?_
  rw [idx_crossL, feat_apply, val_main_v20_apply, idx_crossR]
  rfl

/-- The squared distance, with twice the sum of products subtracted. -/
theorem sqdist_apply (x0 : (⟨S8x512x4096, .f32⟩ : BufTy).Contents (Elt Ideal)) (x1 : (⟨S4096x512, .f32⟩ : BufTy).Contents (Elt Ideal))
    (n : Fin 32768) (k : Fin 4096) :
    val_main_v24 (F := Ideal) x0 x1 (ix2 n k) = Cert.VQ.sqDistOut (Cert.VQ.featRow x0 n) (Cert.VQ.codeRow x1 k) := by
  rw [val_main_v24_apply, val_main_v19_apply, val_main_v17_apply, val_main_v13_apply, idx_zbcast, znorm_apply,
    val_main_v18_apply, val_main_v16_apply, idx_cbcast, cnorm_apply, val_main_v23_apply, val_main_v22_apply,
    val_main_cst_1_apply, cross_apply, Ideal.subf_def, Ideal.addf_def, Ideal.mulf_def, Ideal.ofBits_def]
  rfl

/-! ## The distances of row `n`, negated over the temperature, and their maximum -/

/-- Row `n`'s distances to the codebook rows. -/
abbrev rowDist (x0 : (⟨S8x512x4096, .f32⟩ : BufTy).Contents (Elt Ideal)) (x1 : (⟨S4096x512, .f32⟩ : BufTy).Contents (Elt Ideal))
    (n : Fin 32768) : Fin 4096 → EReal :=
  fun k => Cert.VQ.dist (Cert.VQ.sqDistOut (Cert.VQ.featRow x0 n) (Cert.VQ.codeRow x1 k))

/-- The distance: the square root of the squared distance above the floor. -/
theorem dist_apply (x0 : (⟨S8x512x4096, .f32⟩ : BufTy).Contents (Elt Ideal)) (x1 : (⟨S4096x512, .f32⟩ : BufTy).Contents (Elt Ideal))
    (n : Fin 32768) (k : Fin 4096) :
    val_main_v27 (F := Ideal) x0 x1 (ix2 n k) = rowDist x0 x1 n k := by
  rw [val_main_v27_apply, val_main_v26_apply, sqdist_apply, val_main_v25_apply, val_main_cst_2_apply,
    Ideal.hostUnary_sqrt_def, Ideal.maximumf_def, Ideal.ofBits_def]
  rfl

/-- The negated distance over the temperature. -/
theorem negover_apply (x0 : (⟨S8x512x4096, .f32⟩ : BufTy).Contents (Elt Ideal)) (x1 : (⟨S4096x512, .f32⟩ : BufTy).Contents (Elt Ideal))
    (n : Fin 32768) (k : Fin 4096) :
    val_main_v30 (F := Ideal) x0 x1 (ix2 n k) = Cert.VQ.negOver (rowDist x0 x1 n) k := by
  rw [val_main_v30_apply, val_main_v28_apply, dist_apply, val_main_v29_apply, val_main_cst_3_apply,
    Ideal.hostDivf_def, Ideal.hostNegf_def, Ideal.negf_def, Ideal.ofBits_def]
  rfl

/-- A maximum taken along the codebook axis of a 32768 by 4096 array is, at row `n`, the fold of `max` from the
    initial value over that row's 4096 entries. -/
theorem reduce_max_row (y : (⟨S32768x4096, .f32⟩ : BufTy).Contents (Elt Ideal)) (init : (⟨S_, .f32⟩ : BufTy).Contents (Elt Ideal))
    (n : Fin 32768) :
    (Host.reduce (FloatOps.maximumf (F := Ideal) (φ := .f32)) y init reducesTo_S32768x4096_S32768_d1 h_S_ :
        (⟨S32768, .f32⟩ : BufTy).Contents (Elt Ideal)) (ix1 n)
      = (Finset.univ : Finset (Fin 4096)).fold max (init (Shape.Idx.first h_S_)) (fun k => y (ix2 n k)) := by
  rw [Host.reduce_eq_fold_single (s := S32768x4096) (t := S32768) (a := 1) (FloatOps.maximumf (F := Ideal) (φ := .f32)) y init
    reducesTo_S32768x4096_S32768_d1 (by decide) h_S_ (ix1 n)]
  show (Finset.univ : Finset (Fin 4096)).fold max (init (Shape.Idx.first h_S_)) _ = _
  refine Finset.fold_congr fun k _ => ?_
  exact congrArg y (funext fun a => Fin.ext (by match a with | ⟨0, _⟩ => rfl | ⟨1, _⟩ => rfl))

/-- The row's maximum of the negated distances, guarded below by `-∞`. -/
theorem rowmax_apply (x0 : (⟨S8x512x4096, .f32⟩ : BufTy).Contents (Elt Ideal)) (x1 : (⟨S4096x512, .f32⟩ : BufTy).Contents (Elt Ideal))
    (n : Fin 32768) :
    val_main_v33 (F := Ideal) x0 x1 (ix1 n) = Cert.VQ.negMax (rowDist x0 x1 n) := by
  rw [val_main_v33_apply, val_main_v32_apply, val_main_cst_5_apply, Ideal.maximumf_def, Ideal.ofBits_def]
  unfold val_main_v31
  rw [reduce_max_row, val_main_cst_4_apply, Ideal.ofBits_def]
  unfold Cert.VQ.negMax Cert.VQ.negInfLit
  exact congrArg (max _ ·) (Finset.fold_congr fun k _ => negover_apply x0 x1 n k)

/-! ## The soft weights of row `n` -/

/-- The exponential of the negated distance less the row's maximum. -/
theorem expo_apply (x0 : (⟨S8x512x4096, .f32⟩ : BufTy).Contents (Elt Ideal)) (x1 : (⟨S4096x512, .f32⟩ : BufTy).Contents (Elt Ideal))
    (n : Fin 32768) (k : Fin 4096) :
    val_main_v37 (F := Ideal) x0 x1 (ix2 n k)
      = Ideal.exp (Cert.VQ.negOver (rowDist x0 x1 n) k - Cert.VQ.negMax (rowDist x0 x1 n)) := by
  rw [val_main_v37_apply, val_main_v36_apply, negover_apply, val_main_v35_apply, val_main_v34_apply, idx_maxbcast,
    rowmax_apply, Ideal.hostUnary_exp_def, Ideal.subf_def]

/-- The row's sum of those exponentials. -/
theorem den_apply (x0 : (⟨S8x512x4096, .f32⟩ : BufTy).Contents (Elt Ideal)) (x1 : (⟨S4096x512, .f32⟩ : BufTy).Contents (Elt Ideal))
    (n : Fin 32768) :
    val_main_v38 (F := Ideal) x0 x1 (ix1 n)
      = ∑ k' : Fin 4096, Ideal.exp (Cert.VQ.negOver (rowDist x0 x1 n) k' - Cert.VQ.negMax (rowDist x0 x1 n)) := by
  rw [val_main_v38_apply, val_main_cst_6_apply, Ideal.ofBits_def, Ideal.ofBits_zero_f32, zero_add]
  refine Finset.sum_congr rfl fun k _ => ?_
  rw [idx_den, expo_apply]

/-- The soft weight of codebook row `k`. -/
theorem weight_apply (x0 : (⟨S8x512x4096, .f32⟩ : BufTy).Contents (Elt Ideal)) (x1 : (⟨S4096x512, .f32⟩ : BufTy).Contents (Elt Ideal))
    (n : Fin 32768) (k : Fin 4096) :
    val_main_v41 (F := Ideal) x0 x1 (ix2 n k) = Cert.VQ.softMax (rowDist x0 x1 n) k := by
  rw [val_main_v41_apply, expo_apply, val_main_v40_apply, val_main_v39_apply, idx_denbcast, den_apply, Ideal.hostDivf_def]
  rfl

/-! ## The reconstruction and the row's error -/

/-- The reconstruction of row `n` at column `d`: the weighted sum of the codebook rows. -/
theorem recon_apply (x0 : (⟨S8x512x4096, .f32⟩ : BufTy).Contents (Elt Ideal)) (x1 : (⟨S4096x512, .f32⟩ : BufTy).Contents (Elt Ideal))
    (n : Fin 32768) (d : Fin 512) :
    val_main_v42 (F := Ideal) x0 x1 (ix2 n d)
      = ∑ k : Fin 4096, Cert.VQ.softMax (rowDist x0 x1 n) k * Cert.VQ.codeRow x1 k d := by
  rw [val_main_v42_apply]
  refine Finset.sum_congr rfl fun k _ => ?_
  rw [idx_reconL, weight_apply, idx_reconR]
  rfl

/-- Row `n` of the per-row stage is the row error, with the cross term outside the sum and the softmax through the
    maximum, of the row's features, the codebook, and row `n` of the gathered target rows. -/
theorem row_apply (x0 : (⟨S8x512x4096, .f32⟩ : BufTy).Contents (Elt Ideal)) (x1 : (⟨S4096x512, .f32⟩ : BufTy).Contents (Elt Ideal))
    (x2 : (⟨S8x4096, .i32⟩ : BufTy).Contents (Elt Ideal)) (n : Fin 32768) :
    val_main_v55 (F := Ideal) x0 x1 x2 (ix1 n)
      = Cert.VQ.rowOutMax (Cert.VQ.featRow x0 n) (Cert.VQ.codeRow x1) (Cert.VQ.tgtRow (val_main_v50 (F := Ideal) x1 x2) n) := by
  have hsum : ∑ d : Fin 512, val_main_v52 (F := Ideal) x0 x1 x2 (idx_main_v53 (ix1 n) d)
      = ∑ d : Fin 512,
          ((∑ k : Fin 4096, Cert.VQ.softMax (rowDist x0 x1 n) k * Cert.VQ.codeRow x1 k d)
              - val_main_v50 (F := Ideal) x1 x2 (ix2 n d))
            * ((∑ k : Fin 4096, Cert.VQ.softMax (rowDist x0 x1 n) k * Cert.VQ.codeRow x1 k d)
              - val_main_v50 (F := Ideal) x1 x2 (ix2 n d)) :=
    Finset.sum_congr rfl fun d _ => by
      rw [idx_err, val_main_v52_apply, val_main_v51_apply, recon_apply, Ideal.mulf_def, Ideal.subf_def]
  rw [val_main_v55_apply, val_main_v53_apply, val_main_cst_9_apply, val_main_v54_apply, val_main_cst_10_apply,
    Ideal.hostDivf_def, Ideal.ofBits_def, Ideal.ofBits_def, Ideal.ofBits_zero_f32, zero_add, hsum]
  unfold Cert.VQ.rowOutMax Cert.VQ.rowErr Cert.VQ.dimLit Cert.VQ.tgtRow
  rfl

end Cert.ReferenceIdeal.RefValue

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.RefValue.lean ====
/-
  The reference's result is the loss in its second form: the masked sum of the row errors over the masked count.
-/
import proofs.«411264_j42391327212291_3_alg».proof.Proof.Gen.ReferenceIdeal.Run
import proofs.«411264_j42391327212291_3_alg».proof.Proof.Gen.ReferenceIdeal.Read
import proofs.«411264_j42391327212291_3_alg».proof.Proof.Spec
import proofs.«411264_j42391327212291_3_alg».proof.Proof.RefRow
import proofs.«411264_j42391327212291_3_alg».proof.Proof.LibBlockSum

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## The 32768 rows as 8 batches of 4096 frames -/

/-- The rows are 8 blocks of 4096. -/
theorem rows_eq : 8 * 4096 = 32768 := by norm_num

/-- Row `4096 * b + t`. -/
abbrev rowAt (b : Fin 8) (t : Fin 4096) : Fin 32768 := Cert.LibBlockSum.blockIdx rows_eq b t

/-- Its batch is `b`. -/
theorem batchOf_rowAt (b : Fin 8) (t : Fin 4096) : Cert.VQ.batchOf (rowAt b t) = b := by
  apply Fin.ext
  show (4096 * b.val + t.val) / 4096 = b.val
  have := t.isLt
  omega

/-- Its frame is `t`. -/
theorem frameOf_rowAt (b : Fin 8) (t : Fin 4096) : Cert.VQ.frameOf (rowAt b t) = t := by
  apply Fin.ext
  show (4096 * b.val + t.val) % 4096 = t.val
  have := t.isLt
  omega

/-- The reshape of the 32768 rows to 8 by 4096 reads, at `(b, t)`, row `4096 * b + t`. -/
theorem idx56_rowAt (b : Fin 8) (t : Fin 4096) : idx_main_v56 (ix2 b t) = ix1 (rowAt b t) := by
  funext a
  match a with
  | ⟨0, _⟩ =>
    apply Fin.ext
    show b.val * 4096 + t.val = 4096 * b.val + t.val
    omega

/-- The lengths, broadcast along the frames, are read at the batch. -/
theorem idx4_rowAt (b : Fin 8) (t : Fin 4096) : idx_main_v4 (idx_main_v6 (ix2 b t)) = ix1 b := by
  funext a
  match a with
  | ⟨0, _⟩ => rfl

/-! ## The mask -/

/-- The mask stage at `(b, t)` is the mask of row `4096 * b + t`. -/
theorem mask_apply (x3 : (⟨S8, .i32⟩ : BufTy).Contents (Elt Ideal)) (b : Fin 8) (t : Fin 4096) :
    val_main_v8 (F := Ideal) x3 (ix2 b t) = Cert.VQ.maskOf x3 (rowAt b t) := by
  rw [val_main_v8_apply, val_main_v7_apply, val_main_v5_apply, val_main_v3_apply, val_main_v2_apply, val_main_v0_apply,
    val_main_v1_apply, val_main_c_apply, val_main_v6_apply, val_main_v4_apply, idx4_rowAt]
  unfold Cert.VQ.maskOf Cert.VQ.validBit
  rw [batchOf_rowAt, frameOf_rowAt]
  rfl

/-! ## The two sums over the 8 by 4096 indices, as sums over the 32768 rows -/

/-- A sum over the 8 by 4096 indices of a function of the row is the sum over the rows. -/
theorem sum_rows {M : Type*} [AddCommMonoid M] (f : S8x4096.Idx → M) (g : Fin 32768 → M)
    (h : ∀ (b : Fin 8) (t : Fin 4096), f (ix2 b t) = g (rowAt b t)) :
    ∑ j : S8x4096.Idx, f j = ∑ n : Fin 32768, g n := by
  rw [sum_idx2 f, Cert.LibBlockSum.sum_blocks rows_eq g]
  exact Finset.sum_congr rfl fun b _ => Finset.sum_congr rfl fun t _ => h b t

/-- The masked count. -/
theorem sum_mask (x3 : (⟨S8, .i32⟩ : BufTy).Contents (Elt Ideal)) :
    ∑ j : S8x4096.Idx, val_main_v8 (F := Ideal) x3 j = ∑ n : Fin 32768, Cert.VQ.maskOf x3 n :=
  sum_rows _ _ (mask_apply x3)

/-- The masked sum of the row errors. -/
theorem sum_masked (x0 : (⟨S8x512x4096, .f32⟩ : BufTy).Contents (Elt Ideal)) (x1 : (⟨S4096x512, .f32⟩ : BufTy).Contents (Elt Ideal))
    (x2 : (⟨S8x4096, .i32⟩ : BufTy).Contents (Elt Ideal)) (x3 : (⟨S8, .i32⟩ : BufTy).Contents (Elt Ideal)) :
    ∑ j : S8x4096.Idx, val_main_v57 (F := Ideal) x0 x1 x2 x3 j
      = ∑ n : Fin 32768, Cert.VQ.rowOutMax (Cert.VQ.featRow x0 n) (Cert.VQ.codeRow x1)
          (Cert.VQ.tgtRow (val_main_v50 (F := Ideal) x1 x2) n) * Cert.VQ.maskOf x3 n := by
  refine sum_rows _ _ fun b t => ?_
  rw [val_main_v57_apply, Ideal.mulf_def, val_main_v56_apply, idx56_rowAt, row_apply, mask_apply]

/-! ## The result -/

/-- The last stage is, at its one index, the loss of the four argument arrays (the target rows being the gathered
    codebook rows). -/
theorem val_eq (x0 : (⟨S8x512x4096, .f32⟩ : BufTy).Contents (Elt Ideal)) (x1 : (⟨S4096x512, .f32⟩ : BufTy).Contents (Elt Ideal))
    (x2 : (⟨S8x4096, .i32⟩ : BufTy).Contents (Elt Ideal)) (x3 : (⟨S8, .i32⟩ : BufTy).Contents (Elt Ideal)) :
    val_main_v61 (F := Ideal) x0 x1 x2 x3
      = fun _ => Cert.VQ.lossOutMax x0 x1 (val_main_v50 (F := Ideal) x1 x2) x3 := by
  funext i
  rw [val_main_v61_apply, Ideal.hostDivf_def, val_main_v58_apply, val_main_v60_apply, Ideal.addf_def, val_main_v59_apply,
    val_main_cst_11_apply, val_main_cst_12_apply, val_main_cst_13_apply, Ideal.ofBits_def, Ideal.ofBits_def,
    Ideal.ofBits_zero_f32, zero_add, zero_add, sum_masked, sum_mask]
  rfl

/-- So the run's result term is that loss of the launch memory's argument arrays. -/
theorem result_eq (m : (ℓ : Loc nD τ sig) → Buf (Elt Ideal) ℓ) (c : Dev nD) :
    Cert.ReferenceIdeal.Value.res_out0 (F := Ideal) m c
      = fun _ => Cert.VQ.lossOutMax (m ((c.tc : Thread nD τ).loc main_arg0)) (m ((c.tc : Thread nD τ).loc main_arg1))
          (val_main_v50 (F := Ideal) (m ((c.tc : Thread nD τ).loc main_arg1)) (m ((c.tc : Thread nD τ).loc main_arg2)))
          (m ((c.tc : Thread nD τ).loc main_arg3)) := by
  exact (Cert.ReferenceIdeal.Read.val_main_v61_eq m c).trans (val_eq _ _ _ _)

end Cert.ReferenceIdeal.RefValue

end
-- ==== Proof.KPiece.lean ====
/-
  What the kernel body leaves in its two output blocks at a grid point: each block is written by one store that
  covers it, so the block holds that store's payload — a function of the four input blocks, of the point's second
  coordinate (as a 32-bit word) and of the length word the body reads from the table at the point's first coordinate.
-/
import proofs.«411264_j42391327212291_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The length word the body reads at a point: the table's entry at the point's first coordinate. -/
def lenWord (c : Dev nD) (i : grid0.Coords) (xt0 : TbBuf0 (F := F) c tbM0_0) : Elt F .i32 :=
  View.ld (View.read (Elt F) (View.whole main_arg3) xt0) (Rect.unit (s := S8) (k0_off1 i) S1.size (k0_off1_inb i))
    (Shape.Idx.first (show 0 < S1.numel by decide))

/-- The first output block after the body: the masked sum's payload. -/
theorem out4_eq (c : Dev nD) (i : grid0.Coords) (arg3 : Memref sig .tc .vmem S1x512x512 .f32) (harg3 : arg3.IsWhole) (arg4 : Memref sig .tc .vmem S4096x512 .bf16) (harg4 : arg4.IsWhole) (arg5 : Memref sig .tc .vmem S1x4096 .f32) (harg5 : arg5.IsWhole) (arg6 : Memref sig .tc .vmem S512x512 .bf16) (harg6 : arg6.IsWhole) (arg7 : Memref sig .tc .vmem S1x1x128 .f32) (harg7 : arg7.IsWhole) (arg8 : Memref sig .tc .vmem S1x1x128 .f32) (harg8 : arg8.IsWhole)
    (x0 : Vec F S1x512x512 .f32) (x1 : Vec F S4096x512 .bf16) (x2 : Vec F S1x4096 .f32) (x3 : Vec F S512x512 .bf16) (xt0 : TbBuf0 (F := F) c tbM0_0) :
    out0_A_4 c i arg3 harg3 arg4 harg4 arg5 harg5 arg6 harg6 arg7 harg7 arg8 harg8 x0 x1 x2 x3 xt0
      = k0_pay2 (BitVec.ofNat 32 (i 1).val) (k0_pay4 x0 x1 x2 x3) (k0_pay5 (F := F)) (lenWord c i xt0) := by
  unfold out0_A_4
  rw [View.read_writes_eq_canon _ _ _ (cover0_A_4 c i arg3 harg3 arg4 harg4 arg5 harg5 arg6 harg6 arg7 harg7 arg8 harg8 x0 x1 x2 x3 xt0)]
  unfold kernelRun0_A
  dsimp only
  sl_unfold_words
  rw [View.canon_unit_zero zeros3]
  simp only [View.readAt_eq_ld, harg3.read_unread, harg4.read_unread, harg5.read_unread, harg6.read_unread,
    View.ld_unit_zero (S := S1x512x512) zeros3, View.ld_unit_zero (S := S4096x512) zeros2,
    View.ld_unit_zero (S := S1x4096) zeros2, View.ld_unit_zero (S := S512x512) zeros2, shapeCast_self]
  rfl

/-- The second output block after the body: the mask count's payload. -/
theorem out5_eq (c : Dev nD) (i : grid0.Coords) (arg3 : Memref sig .tc .vmem S1x512x512 .f32) (harg3 : arg3.IsWhole) (arg4 : Memref sig .tc .vmem S4096x512 .bf16) (harg4 : arg4.IsWhole) (arg5 : Memref sig .tc .vmem S1x4096 .f32) (harg5 : arg5.IsWhole) (arg6 : Memref sig .tc .vmem S512x512 .bf16) (harg6 : arg6.IsWhole) (arg7 : Memref sig .tc .vmem S1x1x128 .f32) (harg7 : arg7.IsWhole) (arg8 : Memref sig .tc .vmem S1x1x128 .f32) (harg8 : arg8.IsWhole)
    (x0 : Vec F S1x512x512 .f32) (x1 : Vec F S4096x512 .bf16) (x2 : Vec F S1x4096 .f32) (x3 : Vec F S512x512 .bf16) (xt0 : TbBuf0 (F := F) c tbM0_0) :
    out0_A_5 c i arg3 harg3 arg4 harg4 arg5 harg5 arg6 harg6 arg7 harg7 arg8 harg8 x0 x1 x2 x3 xt0 = k0_pay3 (BitVec.ofNat 32 (i 1).val) (lenWord c i xt0) := by
  unfold out0_A_5
  rw [View.read_writes_eq_canon _ _ _ (cover0_A_5 c i arg3 harg3 arg4 harg4 arg5 harg5 arg6 harg6 arg7 harg7 arg8 harg8 x0 x1 x2 x3 xt0)]
  unfold kernelRun0_A
  dsimp only
  sl_unfold_words
  rw [View.canon_unit_zero zeros3]
  rfl

end Cert.KernelIdeal.KVal

end
-- ==== Proof.KBlocks.lean ====
/-
  Where the windows' blocks sit at grid point `t` of the 8 × 8 grid (batch `t / 8`, tile `t % 8` of the batch's 4096
  frames, so tile `t` of all 64): the feature block is frames `512 (t % 8) + r` of batch `t / 8`, every column; the
  codebook and the row of squared norms are whole; the target block is rows `512 t + r`; each result block is block `t`
  of its array; and the length word read is the table's entry `t / 8`.
-/
import proofs.«411264_j42391327212291_3_alg».proof.Proof.Gen.KernelIdeal.Frame
import proofs.«411264_j42391327212291_3_alg».proof.Proof.KPiece
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable {F : FTy → Type} [FloatOps F]

/-! ## The index maps over the grid, decided once -/

theorem map0 : ∀ t : Fin grid0.N, cc0_transform_0 (grid0.coords t) 0 = t.val / 8 ∧ cc0_transform_0 (grid0.coords t) 1 = 0
    ∧ cc0_transform_0 (grid0.coords t) 2 = t.val % 8 := by decide +kernel
theorem map1 : ∀ t : Fin grid0.N, cc0_transform_1 (grid0.coords t) 0 = 0 ∧ cc0_transform_1 (grid0.coords t) 1 = 0 := by decide +kernel
theorem map2 : ∀ t : Fin grid0.N, cc0_transform_2 (grid0.coords t) 0 = 0 ∧ cc0_transform_2 (grid0.coords t) 1 = 0 := by decide +kernel
theorem map3 : ∀ t : Fin grid0.N, cc0_transform_3 (grid0.coords t) 0 = t.val ∧ cc0_transform_3 (grid0.coords t) 1 = 0 := by decide +kernel
theorem map4 : ∀ t : Fin grid0.N, cc0_transform_4 (grid0.coords t) 0 = t.val ∧ cc0_transform_4 (grid0.coords t) 1 = 0
    ∧ cc0_transform_4 (grid0.coords t) 2 = 0 := by decide +kernel
theorem map5 : ∀ t : Fin grid0.N, cc0_transform_5 (grid0.coords t) 0 = t.val ∧ cc0_transform_5 (grid0.coords t) 1 = 0
    ∧ cc0_transform_5 (grid0.coords t) 2 = 0 := by decide +kernel
/-- The point's coordinates, and the offset of the length word the body reads. -/
theorem coordsOf : ∀ t : Fin grid0.N, (grid0.coords t 0).val = t.val / 8 ∧ (grid0.coords t 1).val = t.val % 8 := by decide +kernel
theorem offOf : ∀ t : Fin grid0.N, k0_off1 (grid0.coords t) 0 = t.val / 8 := by decide +kernel

theorem pointLt (t : Fin grid0.N) : t.val < 64 := by have h : grid0.N = 64 := N_0; have := t.isLt; omega

/-! ## Each window's block at a point, as indices of its array -/

section Emb
variable (a : (pcfg0 (F := F)).Adm) (t : Fin (cfg0 a).N)

theorem emb0 (d r : Fin 512) :
    (((cfg0 a).win 0).blk t).view.emb (ix3 (0 : Fin 1) d r)
      = ix3 (⟨t.val / 8, by have := pointLt t; omega⟩ : Fin 8) d
          (⟨(t.val % 8) * 512 + r.val, by have := r.isLt; omega⟩ : Fin 4096) := by
  obtain ⟨e0, e1, e2⟩ := map0 t
  funext ax; apply Fin.ext
  match ax with
  | ⟨0, _⟩ => show cc0_transform_0 (grid0.coords t) 0 * 1 + 1 * 0 = t.val / 8; omega
  | ⟨1, _⟩ => show cc0_transform_0 (grid0.coords t) 1 * 512 + 1 * d.val = d.val; omega
  | ⟨2, _⟩ => show cc0_transform_0 (grid0.coords t) 2 * 512 + 1 * r.val = (t.val % 8) * 512 + r.val; omega

theorem emb1 (k : Fin 4096) (d : Fin 512) : (((cfg0 a).win 1).blk t).view.emb (ix2 k d) = ix2 k d := by
  obtain ⟨e0, e1⟩ := map1 t
  funext ax; apply Fin.ext
  match ax with
  | ⟨0, _⟩ => show cc0_transform_1 (grid0.coords t) 0 * 4096 + 1 * k.val = k.val; omega
  | ⟨1, _⟩ => show cc0_transform_1 (grid0.coords t) 1 * 512 + 1 * d.val = d.val; omega

theorem emb2 (k : Fin 4096) : (((cfg0 a).win 2).blk t).view.emb (ix2 (0 : Fin 1) k) = ix2 (0 : Fin 1) k := by
  obtain ⟨e0, e1⟩ := map2 t
  funext ax; apply Fin.ext
  match ax with
  | ⟨0, _⟩ => show cc0_transform_2 (grid0.coords t) 0 * 1 + 1 * 0 = 0; omega
  | ⟨1, _⟩ => show cc0_transform_2 (grid0.coords t) 1 * 4096 + 1 * k.val = k.val; omega

theorem emb3 (r d : Fin 512) :
    (((cfg0 a).win 3).blk t).view.emb (ix2 r d)
      = ix2 (⟨t.val * 512 + r.val, by have := pointLt t; have := r.isLt; omega⟩ : Fin 32768) d := by
  obtain ⟨e0, e1⟩ := map3 t
  funext ax; apply Fin.ext
  match ax with
  | ⟨0, _⟩ => show cc0_transform_3 (grid0.coords t) 0 * 512 + 1 * r.val = t.val * 512 + r.val; omega
  | ⟨1, _⟩ => show cc0_transform_3 (grid0.coords t) 1 * 512 + 1 * d.val = d.val; omega

theorem emb4 (l : Fin 128) :
    (((cfg0 a).win 4).blk t).view.emb (ix3 (0 : Fin 1) (0 : Fin 1) l) = ix3 (⟨t.val, pointLt t⟩ : Fin 64) (0 : Fin 1) l := by
  obtain ⟨e0, e1, e2⟩ := map4 t
  funext ax; apply Fin.ext
  match ax with
  | ⟨0, _⟩ => show cc0_transform_4 (grid0.coords t) 0 * 1 + 1 * 0 = t.val; omega
  | ⟨1, _⟩ => show cc0_transform_4 (grid0.coords t) 1 * 1 + 1 * 0 = 0; omega
  | ⟨2, _⟩ => show cc0_transform_4 (grid0.coords t) 2 * 128 + 1 * l.val = l.val; omega

theorem emb5 (l : Fin 128) :
    (((cfg0 a).win 5).blk t).view.emb (ix3 (0 : Fin 1) (0 : Fin 1) l) = ix3 (⟨t.val, pointLt t⟩ : Fin 64) (0 : Fin 1) l := by
  obtain ⟨e0, e1, e2⟩ := map5 t
  funext ax; apply Fin.ext
  match ax with
  | ⟨0, _⟩ => show cc0_transform_5 (grid0.coords t) 0 * 1 + 1 * 0 = t.val; omega
  | ⟨1, _⟩ => show cc0_transform_5 (grid0.coords t) 1 * 1 + 1 * 0 = 0; omega
  | ⟨2, _⟩ => show cc0_transform_5 (grid0.coords t) 2 * 128 + 1 * l.val = l.val; omega

end Emb

/-! ## The length word -/

/-- At point `t` the body reads the table's entry at the point's batch. -/
theorem lenWord_apply (c : Dev nD) (t : Fin grid0.N) (xt : TbBuf0 (F := F) c tbM0_0) :
    lenWord c (grid0.coords t) xt = xt (ix1 (⟨t.val / 8, by have := pointLt t; omega⟩ : Fin 8)) := by
  have e := offOf t
  show xt _ = xt _
  refine congrArg xt ?_
  funext ax; apply Fin.ext
  match ax with
  | ⟨0, _⟩ => show k0_off1 (grid0.coords t) 0 + 1 * 0 = t.val / 8; omega

end Cert.KernelIdeal.KVal

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KPayRow.lean ====
/-
  One tile row of the kernel body: the column of summed squared differences, over 512, is the row's error.
-/
import proofs.«411264_j42391327212291_3_alg».proof.Proof.Gen.KernelIdeal.Skeleton
import proofs.«411264_j42391327212291_3_alg».proof.Proof.Spec
import proofs.«411264_j42391327212291_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## The feature tile, transposed -/

/-- The `[1, 512, 512]` tile with its unit axis dropped and then transposed reads, at `(r, d)`, the tile at `(0, d, r)`. -/
theorem tileT_apply (x0 : Vec Ideal S1x512x512 .f32) (hc : S1x512x512.ShapeCasts S512x512)
    (ht : S512x512.Transposes [1, 0] S512x512) (r d : Fin 512) :
    transpose S512x512 [1, 0] (shapeCast S512x512 x0 hc) ht (ix2 r d) = x0 (ix3 (0 : Fin 1) d r) :=
  (transpose_ix2_apply (shapeCast S512x512 x0 hc) ht r d).trans (shapeCast_1ab_ab_apply x0 hc d r)

/-! ## The two products -/

theorem lhs_cross_0 (i : S512x4096.Idx) (q : dot_S512x512_S4096x512_S512x4096_1_1_0_0_n_n.contr.Idx) :
    (dot_S512x512_S4096x512_S512x4096_1_1_0_0_n_n.lhsIdx i q 0).val = (i 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem lhs_cross_1 (i : S512x4096.Idx) (q : dot_S512x512_S4096x512_S512x4096_1_1_0_0_n_n.contr.Idx) :
    (dot_S512x512_S4096x512_S512x4096_1_1_0_0_n_n.lhsIdx i q 1).val = (q ⟨0, by decide⟩).val :=
  dot_S512x512_S4096x512_S512x4096_1_1_0_0_n_n.lhsIdx_val_of_single rfl i q
theorem rhs_cross_0 (i : S512x4096.Idx) (q : dot_S512x512_S4096x512_S512x4096_1_1_0_0_n_n.contr.Idx) :
    (dot_S512x512_S4096x512_S512x4096_1_1_0_0_n_n.rhsIdx i q 0).val = (i 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl
theorem rhs_cross_1 (i : S512x4096.Idx) (q : dot_S512x512_S4096x512_S512x4096_1_1_0_0_n_n.contr.Idx) :
    (dot_S512x512_S4096x512_S512x4096_1_1_0_0_n_n.rhsIdx i q 1).val = (q ⟨0, by decide⟩).val :=
  dot_S512x512_S4096x512_S512x4096_1_1_0_0_n_n.rhsIdx_val_of_single rfl i q

/-- The product that contracts the columns of both operands, into the zero splat: at `(r, k)` the sum over the 512
    columns of the left row `r` times the right row `k`. -/
theorem cross_apply (lhs : FVec Ideal S512x512 .bf16) (rhs : FVec Ideal S4096x512 .bf16) (r : Fin 512) (k : Fin 4096) :
    matmul dot_S512x512_S4096x512_S512x4096_1_1_0_0_n_n none lhs rhs (constant (F := Ideal) S512x4096 .f32 0x00000000#32) (ix2 r k)
      = ∑ d : Fin 512, lhs (ix2 r d) * rhs (ix2 k d) := by
  simp only [matmul]
  rw [Ideal.matmul_constant_zero_apply, ← Equiv.sum_comp (ValueIdx.contrEquiv1 dot_S512x512_S4096x512_S512x4096_1_1_0_0_n_n 512 rfl rfl).symm]
  refine Finset.sum_congr rfl fun d _ => ?_
  have hk := ValueIdx.contrEquiv1_symm_val dot_S512x512_S4096x512_S512x4096_1_1_0_0_n_n 512 rfl rfl d
  have el : dot_S512x512_S4096x512_S512x4096_1_1_0_0_n_n.lhsIdx (ix2 r k) ((ValueIdx.contrEquiv1 dot_S512x512_S4096x512_S512x4096_1_1_0_0_n_n 512 rfl rfl).symm d) = ix2 r d := funext fun a => Fin.ext (by
    match a with
    | ⟨0, _⟩ => exact lhs_cross_0 _ _
    | ⟨1, _⟩ => exact (lhs_cross_1 _ _).trans hk)
  have er : dot_S512x512_S4096x512_S512x4096_1_1_0_0_n_n.rhsIdx (ix2 r k) ((ValueIdx.contrEquiv1 dot_S512x512_S4096x512_S512x4096_1_1_0_0_n_n 512 rfl rfl).symm d) = ix2 k d := funext fun a => Fin.ext (by
    match a with
    | ⟨0, _⟩ => exact rhs_cross_0 _ _
    | ⟨1, _⟩ => exact (rhs_cross_1 _ _).trans hk)
  rw [el, er]

theorem lhs_recon_0 (i : S512x512.Idx) (q : dot_S512x4096_S4096x512_S512x512_1_0_0_1_n_n.contr.Idx) :
    (dot_S512x4096_S4096x512_S512x512_1_0_0_1_n_n.lhsIdx i q 0).val = (i 0).val := by
  unfold DotDims.lhsIdx
  rw [dif_neg (show ¬(0 : Fin S512x4096.rank) ∈ dot_S512x4096_S4096x512_S512x512_1_0_0_1_n_n.lhsBatch by decide), dif_pos (show (0 : Fin S512x4096.rank) ∈ dot_S512x4096_S4096x512_S512x512_1_0_0_1_n_n.lhsNonContracting by decide)]
  rfl
theorem lhs_recon_1 (i : S512x512.Idx) (q : dot_S512x4096_S4096x512_S512x512_1_0_0_1_n_n.contr.Idx) :
    (dot_S512x4096_S4096x512_S512x512_1_0_0_1_n_n.lhsIdx i q 1).val = (q ⟨0, by decide⟩).val :=
  dot_S512x4096_S4096x512_S512x512_1_0_0_1_n_n.lhsIdx_val_of_single rfl i q
theorem rhs_recon_0 (i : S512x512.Idx) (q : dot_S512x4096_S4096x512_S512x512_1_0_0_1_n_n.contr.Idx) :
    (dot_S512x4096_S4096x512_S512x512_1_0_0_1_n_n.rhsIdx i q 0).val = (q ⟨0, by decide⟩).val :=
  dot_S512x4096_S4096x512_S512x512_1_0_0_1_n_n.rhsIdx_val_of_single rfl i q
theorem rhs_recon_1 (i : S512x512.Idx) (q : dot_S512x4096_S4096x512_S512x512_1_0_0_1_n_n.contr.Idx) :
    (dot_S512x4096_S4096x512_S512x512_1_0_0_1_n_n.rhsIdx i q 1).val = (i 1).val := by
  unfold DotDims.rhsIdx
  rw [dif_neg (show ¬(1 : Fin S4096x512.rank) ∈ dot_S512x4096_S4096x512_S512x512_1_0_0_1_n_n.rhsBatch by decide), dif_pos (show (1 : Fin S4096x512.rank) ∈ dot_S512x4096_S4096x512_S512x512_1_0_0_1_n_n.rhsNonContracting by decide)]
  rfl

/-- The product that contracts the left operand's columns with the right operand's rows, into the zero splat: at
    `(r, d)` the sum over the 4096 of the left row `r` times the right column `d`. -/
theorem recon_apply (lhs : FVec Ideal S512x4096 .bf16) (rhs : FVec Ideal S4096x512 .bf16) (r d : Fin 512) :
    matmul dot_S512x4096_S4096x512_S512x512_1_0_0_1_n_n none lhs rhs (constant (F := Ideal) S512x512 .f32 0x00000000#32) (ix2 r d)
      = ∑ k : Fin 4096, lhs (ix2 r k) * rhs (ix2 k d) := by
  simp only [matmul]
  rw [Ideal.matmul_constant_zero_apply, ← Equiv.sum_comp (ValueIdx.contrEquiv1 dot_S512x4096_S4096x512_S512x512_1_0_0_1_n_n 4096 rfl rfl).symm]
  refine Finset.sum_congr rfl fun k _ => ?_
  have hk := ValueIdx.contrEquiv1_symm_val dot_S512x4096_S4096x512_S512x512_1_0_0_1_n_n 4096 rfl rfl k
  have el : dot_S512x4096_S4096x512_S512x512_1_0_0_1_n_n.lhsIdx (ix2 r d) ((ValueIdx.contrEquiv1 dot_S512x4096_S4096x512_S512x512_1_0_0_1_n_n 4096 rfl rfl).symm k) = ix2 r k := funext fun a => Fin.ext (by
    match a with
    | ⟨0, _⟩ => exact lhs_recon_0 _ _
    | ⟨1, _⟩ => exact (lhs_recon_1 _ _).trans hk)
  have er : dot_S512x4096_S4096x512_S512x512_1_0_0_1_n_n.rhsIdx (ix2 r d) ((ValueIdx.contrEquiv1 dot_S512x4096_S4096x512_S512x512_1_0_0_1_n_n 4096 rfl rfl).symm k) = ix2 k d := funext fun a => Fin.ext (by
    match a with
    | ⟨0, _⟩ => exact (rhs_recon_0 _ _).trans hk
    | ⟨1, _⟩ => exact rhs_recon_1 _ _)
  rw [el, er]

/-! ## The reductions along a row -/

/-- A lane sum over the columns of an `[a, c]` matrix, kept as a column and broadcast back over `b` columns, reads, at
    `(r, k)`, the sum of row `r`. -/
theorem colSum_apply {a b c : ℕ} (src : FVec Ideal ⟨2, ![a, c]⟩ .f32) (h : (⟨2, ![a, c]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) (r : Fin a) (k : Fin b) :
    broadcastTo ⟨2, ![a, b]⟩ (shapeCast ⟨2, ![a, 1]⟩ (multiReduction .add [1] ⟨1, ![a]⟩ src 0x00000000#32 h hφ hacc) hc) hb (ix2 r k)
      = ∑ j : Fin c, src (ix2 r j) :=
  (broadcastTo_a1_ab_apply _ hb r k).trans
    ((shapeCast_a_a1_apply _ hc r (0 : Fin 1)).trans (multiReduction_add_cols_apply src h hφ hacc r))

/-- A lane minimum over the columns of a `[512, 4096]` matrix from the word of `+∞` is, in row `r`, the fold of `min`
    from that word's value over the row. -/
theorem rowMin_apply (src : FVec Ideal S512x4096 .f32) (h : S512x4096.Reduces [1] S512) (hφ : FKind.Formats .f32)
    (hacc : (0x7F800000#32 : BitVec 32) = FKind.minimumf.neutral .f32 hφ) (r : Fin 512) :
    multiReduction .minimumf [1] S512 src 0x7F800000#32 h hφ hacc (ix1 r)
      = (Finset.univ : Finset (Fin 4096)).fold min Cert.VQ.posInfLit (fun k => src (ix2 r k)) := by
  have e : (src ∘ h.lift (ix1 r)) = fun k : Fin 4096 => src (ix2 r k) :=
    funext fun k => congrArg src (funext fun ax => Fin.ext (by
      match ax with
      | ⟨0, _⟩ => rfl
      | ⟨1, _⟩ => rfl))
  rw [multiReduction_minimumf_eq_fold]
  exact (h.fold_filter_drop_single _ _ src (ix1 r)).trans (congrArg (fun f => Finset.fold min Cert.VQ.posInfLit f (Finset.univ : Finset (Fin 4096))) e)

/-- The same minimum kept as a column and broadcast back over the 4096 columns. -/
theorem rowMin_bcast_apply (src : FVec Ideal S512x4096 .f32) (h : S512x4096.Reduces [1] S512) (hφ : FKind.Formats .f32)
    (hacc : (0x7F800000#32 : BitVec 32) = FKind.minimumf.neutral .f32 hφ)
    (hc : S512.ShapeCasts S512x1) (hb : S512x1.Broadcasts S512x4096) (r : Fin 512) (k : Fin 4096) :
    broadcastTo S512x4096 (shapeCast S512x1 (multiReduction .minimumf [1] S512 src 0x7F800000#32 h hφ hacc) hc) hb (ix2 r k)
      = (Finset.univ : Finset (Fin 4096)).fold min Cert.VQ.posInfLit (fun k => src (ix2 r k)) :=
  (broadcastTo_a1_ab_apply _ hb r k).trans
    ((shapeCast_a_a1_apply _ hc r (0 : Fin 1)).trans (rowMin_apply src h hφ hacc r))

/-! ## The body's value in four stages -/

/-- The feature tile with its unit axis dropped, transposed: row `r` is the feature vector of the tile's frame `r`. -/
def feat (x0 : Vec Ideal S1x512x512 .f32) : FVec Ideal S512x512 .f32 :=
  transpose S512x512 [1, 0] (shapeCast S512x512 x0 shapeCasts_S1x512x512_S512x512) transposes_S512x512_p1_0_S512x512

/-- The distances from the 512 rows of `z` to the 4096 rows of `c`, the row `n` standing for the squared norms of `c`'s
    rows: the square root, above the floor, of the rows' squared norms plus `n` plus the product of `-2 z` with `c`. -/
def distMat (z : FVec Ideal S512x512 .f32) (c : FVec Ideal S4096x512 .bf16) (n : FVec Ideal S1x4096 .f32) :
    FVec Ideal S512x4096 .f32 :=
  sqrt (maximumf
    (addf
      (addf
        (broadcastTo S512x4096
          (shapeCast S512x1 (multiReduction .add [1] S512 (mulf z z) 0x00000000#32 reduces_S512x512_S512 (.inl rfl) rfl)
            shapeCasts_S512_S512x1) broadcasts_S512x1_S512x4096)
        (broadcastTo S512x4096 n broadcasts_S1x4096_S512x4096))
      (matmul dot_S512x512_S4096x512_S512x4096_1_1_0_0_n_n none
        (truncf .bf16 (mulf (broadcast S512x512 (Scalar.ofBits .f32 0xC0000000#32)) z) bitsLt_bf16_f32) c
        (constant S512x4096 .f32 0x00000000#32)))
    (broadcast S512x4096 (Scalar.ofBits .f32 0x2B8CBCCC#32)))

/-- The exponentials of each row's minimum minus the row's entries. -/
def expMat (δ : FVec Ideal S512x4096 .f32) : FVec Ideal S512x4096 .f32 :=
  exp (subf
    (broadcastTo S512x4096
      (shapeCast S512x1 (multiReduction .minimumf [1] S512 δ 0x7F800000#32 reduces_S512x4096_S512 (.inl rfl) rfl)
        shapeCasts_S512_S512x1) broadcasts_S512x1_S512x4096)
    δ)

/-- Each row of `e` over its sum. -/
def normMat (e : FVec Ideal S512x4096 .f32) : FVec Ideal S512x4096 .f32 :=
  divf e
    (broadcastTo S512x4096
      (shapeCast S512x1 (multiReduction .add [1] S512 e 0x00000000#32 reduces_S512x4096_S512 (.inl rfl) rfl)
        shapeCasts_S512_S512x1) broadcasts_S512x1_S512x4096)

/-- The column of the rows' summed squared differences between the product of `w` with `c` and `t`. -/
def errCol (w : FVec Ideal S512x4096 .f32) (c : FVec Ideal S4096x512 .bf16) (t : FVec Ideal S512x512 .f32) :
    FVec Ideal S512x1 .f32 :=
  shapeCast S512x1
    (multiReduction .add [1] S512
      (mulf
        (subf (matmul dot_S512x4096_S4096x512_S512x512_1_0_0_1_n_n none (truncf .bf16 w bitsLt_bf16_f32) c
          (constant S512x512 .f32 0x00000000#32)) t)
        (subf (matmul dot_S512x4096_S4096x512_S512x512_1_0_0_1_n_n none (truncf .bf16 w bitsLt_bf16_f32) c
          (constant S512x512 .f32 0x00000000#32)) t))
      0x00000000#32 reduces_S512x512_S512 (.inl rfl) rfl)
    shapeCasts_S512_S512x1

/-- The body's column is the four stages composed: by unfolding. -/
theorem pay4_eq_stages (x0 : Vec Ideal S1x512x512 .f32) (x1 : Vec Ideal S4096x512 .bf16) (x2 : Vec Ideal S1x4096 .f32)
    (x3 : Vec Ideal S512x512 .bf16) :
    k0_pay4 (F := Ideal) x0 x1 x2 x3
      = errCol
          (normMat (expMat (distMat (feat x0) (shapeCast S4096x512 x1 shapeCasts_S4096x512_S4096x512)
            (shapeCast S1x4096 x2 shapeCasts_S1x4096_S1x4096))))
          (shapeCast S4096x512 x1 shapeCasts_S4096x512_S4096x512)
          (extf .f32 (shapeCast S512x512 x3 shapeCasts_S512x512_S512x512) bitsLt_bf16_f32) := rfl

/-! ## The stages at an index -/

theorem sqrt_at {s : Shape} {φ : FTy} (a : FVec Ideal s φ) (i : s.Idx) : sqrt a i = Ideal.sqrt (a i) := rfl
theorem exp_at {s : Shape} {φ : FTy} (a : FVec Ideal s φ) (i : s.Idx) : exp a i = Ideal.exp (a i) := rfl

theorem feat_apply (x0 : Vec Ideal S1x512x512 .f32) (r d : Fin 512) : feat x0 (ix2 r d) = x0 (ix3 (0 : Fin 1) d r) :=
  tileT_apply x0 _ _ r d

theorem distMat_apply (z : FVec Ideal S512x512 .f32) (c : FVec Ideal S4096x512 .bf16) (n : FVec Ideal S1x4096 .f32)
    (r : Fin 512) (k : Fin 4096) :
    distMat z c n (ix2 r k)
      = Ideal.sqrt (max (((∑ d : Fin 512, z (ix2 r d) * z (ix2 r d)) + n (ix2 (0 : Fin 1) k))
          + ∑ d : Fin 512, (Cert.VQ.minusTwoLit * z (ix2 r d)) * c (ix2 k d)) Cert.VQ.floorLit) := by
  unfold distMat
  rw [sqrt_at, maximumf_apply, addf_apply, addf_apply]
  refine congrArg Ideal.sqrt (congrArg₂ max (congrArg₂ (· + ·) (congrArg₂ (· + ·) ?_ ?_) ?_) rfl)
  · exact colSum_apply (mulf z z) _ _ _ _ _ r k
  · exact broadcastTo_1b_ab_apply n _ r k
  · exact cross_apply _ c r k

theorem expMat_apply (δ : FVec Ideal S512x4096 .f32) (r : Fin 512) (k : Fin 4096) :
    expMat δ (ix2 r k)
      = Ideal.exp ((Finset.univ : Finset (Fin 4096)).fold min Cert.VQ.posInfLit (fun k' => δ (ix2 r k')) - δ (ix2 r k)) := by
  unfold expMat
  rw [exp_at, subf_apply]
  exact congrArg (fun m => Ideal.exp (m - δ (ix2 r k))) (rowMin_bcast_apply δ _ _ _ _ _ r k)

theorem normMat_apply (e : FVec Ideal S512x4096 .f32) (r : Fin 512) (k : Fin 4096) :
    normMat e (ix2 r k) = Ideal.div (e (ix2 r k)) (∑ k' : Fin 4096, e (ix2 r k')) := by
  unfold normMat
  rw [divf_apply]
  exact congrArg (Ideal.div (e (ix2 r k))) (colSum_apply e _ _ _ _ _ r k)

theorem errCol_apply (w : FVec Ideal S512x4096 .f32) (c : FVec Ideal S4096x512 .bf16) (t : FVec Ideal S512x512 .f32)
    (r : Fin 512) :
    errCol w c t (ix2 r (0 : Fin 1))
      = ∑ d : Fin 512, ((∑ k : Fin 4096, w (ix2 r k) * c (ix2 k d)) - t (ix2 r d))
          * ((∑ k : Fin 4096, w (ix2 r k) * c (ix2 k d)) - t (ix2 r d)) := by
  unfold errCol
  refine (shapeCast_a_a1_apply _ _ r (0 : Fin 1)).trans ((multiReduction_add_cols_apply _ _ _ _ r).trans ?_)
  refine Finset.sum_congr rfl fun d _ => ?_
  rw [mulf_apply, subf_apply, recon_apply]
  rfl

/-! ## Row `r` against the specification -/

/-- Row `r`'s distance to codebook row `k`, the row `n` holding the codebook rows' squared norms. -/
theorem dist_row (x0 : Vec Ideal S1x512x512 .f32) (c : FVec Ideal S4096x512 .bf16) (n : FVec Ideal S1x4096 .f32)
    (hn : ∀ k : Fin 4096, n (ix2 (0 : Fin 1) k) = ∑ d : Fin 512, c (ix2 k d) * c (ix2 k d)) (r : Fin 512) (k : Fin 4096) :
    distMat (feat x0) c n (ix2 r k)
      = Cert.VQ.dist (Cert.VQ.sqDistIn (fun d => x0 (ix3 (0 : Fin 1) d r)) (fun d => c (ix2 k d))) := by
  rw [distMat_apply, hn]
  simp only [feat_apply]
  rfl

/-- The normalised exponentials of a row are the soft weights, through the minimum, of the row. -/
theorem soft_row (δ : FVec Ideal S512x4096 .f32) (r : Fin 512) (k : Fin 4096) :
    normMat (expMat δ) (ix2 r k) = Cert.VQ.softMin (fun k' => δ (ix2 r k')) k := by
  rw [normMat_apply]
  simp only [expMat_apply]
  rfl

/-- Row `r`'s soft weight of codebook row `k`. -/
theorem weight_row (x0 : Vec Ideal S1x512x512 .f32) (c : FVec Ideal S4096x512 .bf16) (n : FVec Ideal S1x4096 .f32)
    (hn : ∀ k : Fin 4096, n (ix2 (0 : Fin 1) k) = ∑ d : Fin 512, c (ix2 k d) * c (ix2 k d)) (r : Fin 512) (k : Fin 4096) :
    normMat (expMat (distMat (feat x0) c n)) (ix2 r k)
      = Cert.VQ.softMin
          (fun k' => Cert.VQ.dist (Cert.VQ.sqDistIn (fun d => x0 (ix3 (0 : Fin 1) d r)) (fun d => c (ix2 k' d)))) k :=
  (soft_row _ r k).trans (congrArg (fun δ => Cert.VQ.softMin δ k) (funext fun k' => dist_row x0 c n hn r k'))

/-- The four stages at row `r`, over the column count, are the row's error. -/
theorem stages_row (x0 : Vec Ideal S1x512x512 .f32) (c : FVec Ideal S4096x512 .bf16) (n : FVec Ideal S1x4096 .f32)
    (t : FVec Ideal S512x512 .bf16)
    (hn : ∀ k : Fin 4096, n (ix2 (0 : Fin 1) k) = ∑ d : Fin 512, c (ix2 k d) * c (ix2 k d)) (r : Fin 512) :
    Ideal.div (errCol (normMat (expMat (distMat (feat x0) c n))) c (extf .f32 t bitsLt_bf16_f32) (ix2 r (0 : Fin 1)))
        Cert.VQ.dimLit
      = Cert.VQ.rowInMin (fun d => x0 (ix3 (0 : Fin 1) d r)) (fun k d => c (ix2 k d)) (fun d => t (ix2 r d)) := by
  rw [errCol_apply]
  unfold Cert.VQ.rowInMin Cert.VQ.rowErr
  simp only [weight_row x0 c n hn r, extf_apply]

/-- Row `r` of the body's column of summed squared differences, divided by the column count, is the row error with
    the cross term inside the sum and the softmax through the minimum — of the tile's feature row `x0[0, ·, r]`, the
    codebook `x1`, and the tile's target row `x3[r, ·]` — provided the loaded row `x2` holds the codebook rows' squared
    norms. -/
theorem pay4_apply (x0 : Vec Ideal S1x512x512 .f32) (x1 : Vec Ideal S4096x512 .bf16) (x2 : Vec Ideal S1x4096 .f32)
    (x3 : Vec Ideal S512x512 .bf16)
    (hc2 : ∀ k : Fin 4096, x2 (ix2 (0 : Fin 1) k) = ∑ d : Fin 512, x1 (ix2 k d) * x1 (ix2 k d)) (r : Fin 512) :
    Ideal.div (k0_pay4 (F := Ideal) x0 x1 x2 x3 (ix2 r (0 : Fin 1))) Cert.VQ.dimLit
      = Cert.VQ.rowInMin (fun d => x0 (ix3 (0 : Fin 1) d r)) (fun k d => x1 (ix2 k d)) (fun d => x3 (ix2 r d)) := by
  rw [pay4_eq_stages, shapeCast_self, shapeCast_self, shapeCast_self]
  exact stages_row x0 x1 x2 x3 hc2 r

end Cert.KernelIdeal.KVal

end
-- ==== Proof.KPayMask.lean ====
/-
  The kernel body's mask column and its two tile sums, read at an index.
-/
import proofs.«411264_j42391327212291_3_alg».proof.Proof.Gen.KernelIdeal.Skeleton
import proofs.«411264_j42391327212291_3_alg».proof.Proof.Spec
import proofs.«411264_j42391327212291_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## The pieces that are not pointwise -/

/-- The iota along the rows of a `[512, 1]` column reads, in row `r`, the word of `r`. -/
theorem iota_col_apply (h : S512x1.Iotas .tc 32 [0]) (r : Fin 512) :
    iota .tc S512x1 32 [0] h (ix2 r (0 : Fin 1)) = BitVec.ofNat 32 r.val :=
  iota_single_apply .tc S512x1 32 0 h (ix2 r (0 : Fin 1))

/-- A bit widened to a 32-bit word reads, signed, as the bit's own number: zero or one. -/
theorem bit_setWidth_toInt (b : BitVec 1) : ((b.setWidth 32).toInt : ℝ) = (b.toNat : ℝ) := by
  by_cases h : b = 1#1
  · subst h; norm_num
  · have h0 := eq_zero_of_ne_one h
    subst h0; norm_num

/-- The `[1]` vector cast to `[1, 1]`, to `[1, 1, 1]` (twice) and broadcast to `[1, 1, 128]` reads its one entry in every
    lane: the broadcast reads the unit index, the identity cast is nothing, and the two casts that add a unit axis keep
    the row-major position zero. -/
theorem lanes_of_one {α : Type} (x : S1.Idx → α) (h1 : S1.ShapeCasts S1x1) (h2 : S1x1.ShapeCasts S1x1x1)
    (h3 : S1x1x1.ShapeCasts S1x1x1) (h4 : S1x1x1.Broadcasts S1x1x128) (l : Fin 128) :
    broadcastTo S1x1x128 (shapeCast S1x1x1 (shapeCast S1x1x1 (shapeCast S1x1 x h1) h2) h3) h4
        (ix3 (0 : Fin 1) (0 : Fin 1) l) = x (ix1 (0 : Fin 1)) := by
  rw [shapeCast_self]
  have hb : broadcastTo S1x1x128 (shapeCast S1x1x1 (shapeCast S1x1 x h1) h2) h4 (ix3 (0 : Fin 1) (0 : Fin 1) l)
      = shapeCast S1x1x1 (shapeCast S1x1 x h1) h2 (ix3 (0 : Fin 1) (0 : Fin 1) (0 : Fin 1)) := by
    refine broadcastTo_apply _ h4 _ _ fun a => ?_
    match a with
    | ⟨0, _⟩ => rfl
    | ⟨1, _⟩ => rfl
    | ⟨2, _⟩ => rfl
  have hc : shapeCast S1x1x1 (shapeCast S1x1 x h1) h2 (ix3 (0 : Fin 1) (0 : Fin 1) (0 : Fin 1))
      = shapeCast S1x1 x h1 (ix2 (0 : Fin 1) (0 : Fin 1)) :=
    shapeCast_apply _ h2 _ _ rfl
  rw [hb, hc, shapeCast_a_a1_apply]

/-! ## The payloads at an index -/

/-- The mask column at row `r`: one or zero as `320 · (512 · j + r)`, computed in 32-bit words from the tile's column
    index word `a1`, is below the length word `w`, signed. -/
theorem pay1_apply (a1 : BitVec 32) (w : BitVec 32) (r : Fin 512) :
    k0_pay1 (F := Ideal) a1 w (ix2 r (0 : Fin 1))
      = (((IntOp.cmpi .slt ((a1 * 512#32 + BitVec.ofNat 32 r.val) * 320#32) w).toNat : ℝ) : EReal) := by
  unfold k0_pay1
  show (((((IntOp.cmpi .slt ((a1 * 512#32 + iota .tc S512x1 32 [0] iota_S512x1_d0_w32 (ix2 r (0 : Fin 1))) * 320#32) w).setWidth 32).toInt : ℝ)) : EReal) = _
  rw [iota_col_apply, bit_setWidth_toInt]

/-- The divisor column is the column count's word everywhere. -/
theorem pay5_apply (r : Fin 512) : k0_pay5 (F := Ideal) (ix2 r (0 : Fin 1)) = Cert.VQ.dimLit := by
  rfl

/-- Every lane of the first stored block is the tile's masked sum: over the rows, the quotient of the two columns
    times the mask. -/
theorem pay2_apply (a1 : BitVec 32) (v38 v39 : FVec Ideal S512x1 .f32) (w : BitVec 32) (l : Fin 128) :
    k0_pay2 (F := Ideal) a1 v38 v39 w (ix3 (0 : Fin 1) (0 : Fin 1) l)
      = ∑ r : Fin 512, Ideal.div (v38 (ix2 r (0 : Fin 1))) (v39 (ix2 r (0 : Fin 1))) * k0_pay1 (F := Ideal) a1 w (ix2 r (0 : Fin 1)) := by
  unfold k0_pay2
  refine (lanes_of_one _ _ _ _ _ l).trans ?_
  exact multiReduction_add_rows_apply (a := 512) (b := 1) _ _ _ _ (0 : Fin 1)

/-- Every lane of the second stored block is the tile's mask count. -/
theorem pay3_apply (a1 : BitVec 32) (w : BitVec 32) (l : Fin 128) :
    k0_pay3 (F := Ideal) a1 w (ix3 (0 : Fin 1) (0 : Fin 1) l) = ∑ r : Fin 512, k0_pay1 (F := Ideal) a1 w (ix2 r (0 : Fin 1)) := by
  unfold k0_pay3
  refine (lanes_of_one _ _ _ _ _ l).trans ?_
  exact multiReduction_add_rows_apply (a := 512) (b := 1) _ _ _ _ (0 : Fin 1)

end Cert.KernelIdeal.KVal

end
-- ==== Proof.KHostPre.lean ====
/-
  What the region finds in the arrays the host lines before it compute: the codebook (a change of float format: the identity on the extended reals), the codebook rows' squared norms, the gathered target rows; and the table of lengths.
-/
import proofs.«411264_j42391327212291_3_alg».proof.Proof.Gen.KernelIdeal.Frame
import proofs.«411264_j42391327212291_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

/-- The target rows: the codebook rows gathered at the codes, a negative code counted from the end. -/
def tgtK (C : S4096x512.Idx → EReal) (codes : IVec S8x4096 32) : S32768x512.Idx → EReal :=
  Host.gather gather_S4096x512_S32768x1_S32768x512_1_0_n_n_0_1_1512 C
    (broadcastInDim S32768x1 ![0] bcast_S32768_S32768x1_0
      (select (cmpi .slt (shapeCast _ codes shapeCasts_S8x4096_S32768) (broadcastInDim S32768 ![] bcast_S_S32768 (constantI S_ 32 0#32)))
        (addi (shapeCast _ codes shapeCasts_S8x4096_S32768) (broadcastInDim S32768 ![] bcast_S_S32768 (constantI S_ 32 4096#32)))
        (shapeCast _ codes shapeCasts_S8x4096_S32768)))

/-- The launch memory's codebook, and the row of squared norms as the region finds it, at their literal types. -/
abbrev cbArr (c : Dev nD) : S4096x512.Idx → EReal := m ((c.tc : Thread nD τ).loc main_arg1)
abbrev normsArr (c : Dev nD) : S1x4096.Idx → EReal := V m c main_v11

/-! ## The arrays as terms of the launch memory -/

/-- The codebook as the region finds it is the launch memory's codebook with its float format changed. -/
theorem V_codebook_eq (c : Dev nD) :
    @Eq (S4096x512.Idx → EReal) (V m c main_v1)
      (truncf (F := Ideal) (s := S4096x512) (φ := .f32) .bf16 (m ((c.tc : Thread nD τ).loc main_arg1)) bitsLt_bf16_f32) := by
  show StableHlo.after hostOps0 (fun b => m (c, b)) (Proc.devRef .tc main_v1) = _
  after_results

/-- The row of squared norms as the region finds it: the sum over the columns of the codebook's entrywise square,
    from zero, recast from `[4096]` to `[1, 4096]`. -/
theorem V_norms_eq (c : Dev nD) :
    @Eq (S1x4096.Idx → EReal) (V m c main_v11)
      (shapeCast S1x4096 (Host.reduceAdd (F := Ideal) (mulf (F := Ideal) (s := S4096x512) (φ := .f32) (cbArr m c) (cbArr m c)) (constant (F := Ideal) S_ .f32 0x00000000#32)
          reducesTo_S4096x512_S4096_d1 h_S_) shapeCasts_S4096_S1x4096) := by
  show StableHlo.after hostOps0 (fun b => m (c, b)) (Proc.devRef .tc main_v11) = _
  after_results
  rfl

/-- That term at `(0, k)`, for any matrix `x` of extended reals: the cast reads entry `k` of the vector of sums, the sum
    over the columns from zero is the `Fin 512`-indexed sum of row `k`, and the square is entrywise. -/
theorem rowNorms_apply (x : FVec Ideal S4096x512 .f32) (k : Fin 4096) :
    shapeCast S1x4096 (Host.reduceAdd (F := Ideal) (mulf x x) (constant (F := Ideal) S_ .f32 0x00000000#32)
        reducesTo_S4096x512_S4096_d1 h_S_) shapeCasts_S4096_S1x4096 (ix2 (0 : Fin 1) k)
      = ∑ d : Fin 512, x (ix2 k d) * x (ix2 k d) := by
  rw [shapeCast_a_1a_apply]
  simp only [Host.reduceAdd, Ideal.hostReduceAdd_def]
  rw [Ideal.hostReduceAdd_single reducesTo_S4096x512_S4096_d1 (by decide)]
  show Ideal.ofBits .f32 0x00000000#32 + _ = _
  rw [Ideal.ofBits_zero_f32, zero_add]
  refine Finset.sum_congr rfl fun d _ => ?_
  have hi : ∀ i j : S4096x512.Idx, i = j → mulf x x i = x j * x j := fun i j h => by subst h; rfl
  exact hi _ _ (funext fun a => Fin.ext (by match a with | ⟨0, _⟩ => rfl | ⟨1, _⟩ => rfl))

/-! ## What the region finds -/

/-- The codebook as the region finds it, entry by entry, is the launch memory's. -/
theorem V_codebook (c : Dev nD) (k : Fin 4096) (d : Fin 512) :
    V m c main_v1 (ix2 k d) = m ((c.tc : Thread nD τ).loc main_arg1) (ix2 k d) := by
  show (V m c main_v1 : S4096x512.Idx → EReal) (ix2 k d) = _
  rw [V_codebook_eq]
  rfl

/-- The row of squared norms as the region finds it: entry `k` is the sum of the squares of codebook row `k`. -/
theorem V_norms (c : Dev nD) (k : Fin 4096) :
    normsArr m c (ix2 (0 : Fin 1) k) = ∑ d : Fin 512, cbArr m c (ix2 k d) * cbArr m c (ix2 k d) := by
  show (V m c main_v11 : S1x4096.Idx → EReal) (ix2 (0 : Fin 1) k) = _
  rw [V_norms_eq]
  exact rowNorms_apply (cbArr m c) k

/-- The target rows as the region finds them are the gathered codebook rows. -/
theorem V_targets (c : Dev nD) :
    V m c main_v8 = tgtK (m ((c.tc : Thread nD τ).loc main_arg1)) (m ((c.tc : Thread nD τ).loc main_arg2)) := by
  show StableHlo.after hostOps0 (fun b => m (c, b)) (Proc.devRef .tc main_v8) = _
  after_results
  rfl

/-- The table the body reads is the launch memory's lengths. -/
theorem tbl_lengths : tbl m 0 = m (((0 : Dev nD).tc : Thread nD τ).loc main_arg3) := by
  exact V_main_arg3 m 0

end Cert.KernelIdeal.KVal

end
-- ==== Proof.KTile.lean ====
/-
  What a grid point writes back. Point `t` of the 64 handles rows `512 t + r`: every lane of its first block is the sum over those rows of the row error times the mask, every lane of its second block the sum of the mask — so block `t` of each result array is block `t` of one function of the argument arrays.
-/
import proofs.«411264_j42391327212291_3_alg».proof.Proof.Gen.KernelIdeal.Frame
import proofs.«411264_j42391327212291_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«411264_j42391327212291_3_alg».proof.Proof.KPiece
import proofs.«411264_j42391327212291_3_alg».proof.Proof.KBlocks
import proofs.«411264_j42391327212291_3_alg».proof.Proof.KPayRow
import proofs.«411264_j42391327212291_3_alg».proof.Proof.KPayMask
import proofs.«411264_j42391327212291_3_alg».proof.Proof.KHostPre
import proofs.«411264_j42391327212291_3_alg».proof.Proof.LibBlockSum

noncomputable section

open scoped BigOperators

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

open Cert.VQ (rowInMin featRow codeRow tgtRow maskOf validBit batchOf frameOf)

/-! ## Rows of a tile -/

/-- Row `512 q + r`: row `r` of tile `q`. -/
abbrev rowOf (q : Fin 64) (r : Fin 512) : Fin 32768 :=
  Cert.LibBlockSum.blockIdx (B := 64) (R := 512) (N := 32768) (by norm_num) q r

/-- A tile's masked sum of row errors. -/
def tileNum (X : Cert.VQ.SX.Idx → EReal) (C : Cert.VQ.SC.Idx → EReal) (G : Cert.VQ.SG.Idx → EReal)
    (lens : Cert.VQ.SL.Idx → BitVec 32) (q : Fin 64) : EReal :=
  ∑ r : Fin 512, rowInMin (featRow X (rowOf q r)) (codeRow C) (tgtRow G (rowOf q r)) * maskOf lens (rowOf q r)

/-- A tile's mask count. -/
def tileDen (lens : Cert.VQ.SL.Idx → BitVec 32) (q : Fin 64) : EReal := ∑ r : Fin 512, maskOf lens (rowOf q r)

/-- Row `512 t + r` is in batch `t / 8` at frame `512 (t % 8) + r`. -/
theorem batch_rowOf (t : Fin 64) (r : Fin 512) : (batchOf (rowOf t r)).val = t.val / 8 := by
  show (512 * t.val + r.val) / 4096 = t.val / 8
  have := t.isLt; have := r.isLt; omega
theorem frame_rowOf (t : Fin 64) (r : Fin 512) : (frameOf (rowOf t r)).val = 512 * (t.val % 8) + r.val := by
  show (512 * t.val + r.val) % 4096 = 512 * (t.val % 8) + r.val
  have := t.isLt; have := r.isLt; omega

/-- As 32-bit words, `512 j + r` computed from the words of `j` and `r` is the word of `512 j + r`. -/
theorem word_row (j r : Nat) (hj : j < 8) (hr : r < 512) :
    BitVec.ofNat 32 j * 512#32 + BitVec.ofNat 32 r = BitVec.ofNat 32 (512 * j + r) := by
  apply BitVec.eq_of_toNat_eq
  simp only [BitVec.toNat_add, BitVec.toNat_mul, BitVec.toNat_ofNat, Nat.reducePow, Nat.reduceMod]
  omega

/-- The mask the body computes at row `r` of point `t`, from the point's tile word and the batch's length, is the
    mask of row `512 t + r`. -/
theorem mask_point (lens : Cert.VQ.SL.Idx → BitVec 32) (t : Fin 64) (r : Fin 512) :
    (((IntOp.cmpi .slt ((BitVec.ofNat 32 (t.val % 8) * 512#32 + BitVec.ofNat 32 r.val) * 320#32)
        (lens (ix1 (⟨t.val / 8, by have := t.isLt; omega⟩ : Fin 8)))).toNat : ℝ) : EReal) = maskOf lens (rowOf t r) := by
  unfold Cert.VQ.maskOf Cert.VQ.validBit
  rw [word_row _ _ (by omega) r.isLt, frame_rowOf t r]
  have hb : batchOf (rowOf t r) = (⟨t.val / 8, by have := t.isLt; omega⟩ : Fin 8) := Fin.ext (batch_rowOf t r)
  rw [hb]

/-! ## The two payloads at a lane, over any blocks -/

/-- Every lane of the first payload: over the tile's rows, the row error of the blocks' rows times the mask. -/
theorem tile_num (a1 w : BitVec 32) (x0 : Vec Ideal S1x512x512 .f32) (x1 : Vec Ideal S4096x512 .bf16)
    (x2 : Vec Ideal S1x4096 .f32) (x3 : Vec Ideal S512x512 .bf16)
    (hc2 : ∀ k : Fin 4096, x2 (ix2 (0 : Fin 1) k) = ∑ d : Fin 512, x1 (ix2 k d) * x1 (ix2 k d)) (l : Fin 128) :
    k0_pay2 (F := Ideal) a1 (k0_pay4 (F := Ideal) x0 x1 x2 x3) (k0_pay5 (F := Ideal)) w (ix3 (0 : Fin 1) (0 : Fin 1) l)
      = ∑ r : Fin 512, rowInMin (fun d => x0 (ix3 (0 : Fin 1) d r)) (fun k d => x1 (ix2 k d)) (fun d => x3 (ix2 r d))
          * (((IntOp.cmpi .slt ((a1 * 512#32 + BitVec.ofNat 32 r.val) * 320#32) w).toNat : ℝ) : EReal) := by
  rw [pay2_apply]
  refine Finset.sum_congr rfl fun r _ => ?_
  rw [pay5_apply, pay4_apply x0 x1 x2 x3 hc2 r, pay1_apply]

/-- Every lane of the second payload: the mask summed over the tile's rows. -/
theorem tile_den (a1 w : BitVec 32) (l : Fin 128) :
    k0_pay3 (F := Ideal) a1 w (ix3 (0 : Fin 1) (0 : Fin 1) l)
      = ∑ r : Fin 512, (((IntOp.cmpi .slt ((a1 * 512#32 + BitVec.ofNat 32 r.val) * 320#32) w).toNat : ℝ) : EReal) := by
  rw [pay3_apply]
  exact Finset.sum_congr rfl fun r _ => pay1_apply a1 w r

/-! ## The argument arrays at their literal types, and the blocks read off them -/

abbrev xArr (c : Dev nD) : Cert.VQ.SX.Idx → EReal := m ((c.tc : Thread nD τ).loc main_arg0)
abbrev gArr (c : Dev nD) : Cert.VQ.SG.Idx → EReal := tgtK (cbArr m c) (m ((c.tc : Thread nD τ).loc main_arg2))
abbrev lArr (c : Dev nD) : Cert.VQ.SL.Idx → BitVec 32 := m ((c.tc : Thread nD τ).loc main_arg3)

section Blocks
variable (hO : Ok m) (c : Dev nD) (t : Fin (cfgM m hO).N)

/-- The four input blocks at point `t`, at their literal types. -/
abbrev b0 : Vec Ideal S1x512x512 .f32 := iblk m hO c 0 t
abbrev b1 : Vec Ideal S4096x512 .bf16 := iblk m hO c 1 t
abbrev b2 : Vec Ideal S1x4096 .f32 := iblk m hO c 2 t
abbrev b3 : Vec Ideal S512x512 .bf16 := iblk m hO c 3 t

theorem blk0 (d r : Fin 512) :
    b0 m hO c t (ix3 (0 : Fin 1) d r)
      = xArr m c (ix3 (⟨t.val / 8, by have := pointLt t; omega⟩ : Fin 8) d
          (⟨(t.val % 8) * 512 + r.val, by have := r.isLt; omega⟩ : Fin 4096)) := by
  show V m c main_arg0 ((((cfg0 (adm m hO)).win 0).blk t).view.emb (ix3 (0 : Fin 1) d r)) = _
  rw [emb0 (adm m hO) t d r, V_main_arg0]

theorem blk1 (k : Fin 4096) (d : Fin 512) :
    b1 m hO c t (ix2 k d) = cbArr m c (ix2 k d) := by
  show V m c main_v1 ((((cfg0 (adm m hO)).win 1).blk t).view.emb (ix2 k d)) = _
  rw [emb1 (adm m hO) t k d]
  exact V_codebook m c k d

theorem blk2 (k : Fin 4096) :
    b2 m hO c t (ix2 (0 : Fin 1) k) = normsArr m c (ix2 (0 : Fin 1) k) := by
  show V m c main_v11 ((((cfg0 (adm m hO)).win 2).blk t).view.emb (ix2 (0 : Fin 1) k)) = _
  rw [emb2 (adm m hO) t k]

theorem blk3 (r d : Fin 512) :
    b3 m hO c t (ix2 r d)
      = gArr m c (ix2 (⟨t.val * 512 + r.val, by have := pointLt t; have := r.isLt; omega⟩ : Fin 32768) d) := by
  show V m c main_v8 ((((cfg0 (adm m hO)).win 3).blk t).view.emb (ix2 r d)) = _
  rw [emb3 (adm m hO) t r d, V_targets]

/-- The loaded row of squared norms is the loaded codebook's. -/
theorem blk_norms (k : Fin 4096) :
    b2 m hO c t (ix2 (0 : Fin 1) k)
      = ∑ d : Fin 512, b1 m hO c t (ix2 k d) * b1 m hO c t (ix2 k d) := by
  rw [blk2, V_norms]
  exact Finset.sum_congr rfl fun d _ => by rw [blk1]

/-! ## The rows a point handles, read off the argument arrays -/

/-- The feature rows of the point's block are rows `512 t + r` of the features. -/
theorem feat_point (r : Fin 512) :
    (fun d => b0 m hO c t (ix3 (0 : Fin 1) d r))
      = featRow (xArr m c) (rowOf ⟨t.val, pointLt t⟩ r) := by
  funext d
  rw [blk0]
  unfold Cert.VQ.featRow
  have hb : batchOf (rowOf ⟨t.val, pointLt t⟩ r) = (⟨t.val / 8, by have := pointLt t; omega⟩ : Fin 8) :=
    Fin.ext (batch_rowOf ⟨t.val, pointLt t⟩ r)
  have hf : frameOf (rowOf ⟨t.val, pointLt t⟩ r) = (⟨(t.val % 8) * 512 + r.val, by have := r.isLt; omega⟩ : Fin 4096) :=
    Fin.ext (by rw [frame_rowOf]; show 512 * (t.val % 8) + r.val = (t.val % 8) * 512 + r.val; omega)
  rw [hb, hf]

/-- The loaded codebook is the codebook. -/
theorem code_point : (fun (k : Fin 4096) (d : Fin 512) => b1 m hO c t (ix2 k d)) = codeRow (cbArr m c) :=
  funext fun k => funext fun d => blk1 m hO c t k d

/-- The target rows of the point's block are rows `512 t + r` of the gathered rows. -/
theorem tgt_point (r : Fin 512) :
    (fun d => b3 m hO c t (ix2 r d)) = tgtRow (gArr m c) (rowOf ⟨t.val, pointLt t⟩ r) := by
  funext d
  rw [blk3]
  unfold Cert.VQ.tgtRow
  have hn : (⟨t.val * 512 + r.val, by have := pointLt t; have := r.isLt; omega⟩ : Fin 32768) = rowOf ⟨t.val, pointLt t⟩ r :=
    Fin.ext (by show t.val * 512 + r.val = 512 * t.val + r.val; omega)
  rw [hn]

/-- The mask the body computes at the point is the mask of rows `512 t + r`. -/
theorem mask_at (r : Fin 512) :
    (((IntOp.cmpi .slt ((BitVec.ofNat 32 (grid0.coords t 1).val * 512#32 + BitVec.ofNat 32 r.val) * 320#32)
        (lenWord c (grid0.coords t) (tbl m 0))).toNat : ℝ) : EReal) = maskOf (lArr m c) (rowOf ⟨t.val, pointLt t⟩ r) := by
  obtain rfl : c = 0 := Subsingleton.elim _ _
  rw [lenWord_apply (0 : Dev nD) t (tbl m 0), tbl_lengths, (coordsOf t).2]
  exact mask_point (lArr m 0) ⟨t.val, pointLt t⟩ r

/-! ## The two output blocks at a point -/

/-- Every lane of the first block point `t` leaves is tile `t`'s masked sum. -/
theorem tile4 (l : Fin 128) :
    k0_pay2 (F := Ideal) (BitVec.ofNat 32 (grid0.coords t 1).val)
        (k0_pay4 (F := Ideal) (b0 m hO c t) (b1 m hO c t) (b2 m hO c t) (b3 m hO c t))
        (k0_pay5 (F := Ideal)) (lenWord c (grid0.coords t) (tbl m 0)) (ix3 (0 : Fin 1) (0 : Fin 1) l)
      = tileNum (xArr m c) (cbArr m c) (gArr m c) (lArr m c) ⟨t.val, pointLt t⟩ := by
  refine (tile_num _ _ (b0 m hO c t) (b1 m hO c t) (b2 m hO c t) (b3 m hO c t) (blk_norms m hO c t) l).trans ?_
  unfold tileNum
  refine Finset.sum_congr rfl fun r _ => ?_
  exact congrArg₂ (· * ·) (congr (congr (congrArg rowInMin (feat_point m hO c t r)) (code_point m hO c t)) (tgt_point m hO c t r))
    (mask_at m hO c t r)

/-- Every lane of the second block point `t` leaves is tile `t`'s mask count. -/
theorem tile5 (l : Fin 128) :
    k0_pay3 (F := Ideal) (BitVec.ofNat 32 (grid0.coords t 1).val) (lenWord c (grid0.coords t) (tbl m 0))
        (ix3 (0 : Fin 1) (0 : Fin 1) l)
      = tileDen (lArr m c) ⟨t.val, pointLt t⟩ := by
  refine (tile_den _ _ l).trans ?_
  unfold tileDen
  exact Finset.sum_congr rfl fun r _ => mask_at m hO c t r

/-- The two output blocks the body leaves at point `t`, at their literal type, and their payloads. -/
abbrev outBlk4 : Vec Ideal S1x1x128 .f32 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (b0 m hO c t) (b1 m hO c t) (b2 m hO c t) (b3 m hO c t) (tbl m 0)
abbrev outBlk5 : Vec Ideal S1x1x128 .f32 :=
  out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (b0 m hO c t) (b1 m hO c t) (b2 m hO c t) (b3 m hO c t) (tbl m 0)

theorem outBlk4_eq : outBlk4 m hO c t
    = k0_pay2 (F := Ideal) (BitVec.ofNat 32 (grid0.coords t 1).val)
        (k0_pay4 (F := Ideal) (b0 m hO c t) (b1 m hO c t) (b2 m hO c t) (b3 m hO c t))
        (k0_pay5 (F := Ideal)) (lenWord c (grid0.coords t) (tbl m 0)) :=
  out4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (b0 m hO c t) (b1 m hO c t) (b2 m hO c t) (b3 m hO c t) (tbl m 0)
theorem outBlk5_eq : outBlk5 m hO c t
    = k0_pay3 (F := Ideal) (BitVec.ofNat 32 (grid0.coords t 1).val) (lenWord c (grid0.coords t) (tbl m 0)) :=
  out5_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (b0 m hO c t) (b1 m hO c t) (b2 m hO c t) (b3 m hO c t) (tbl m 0)

end Blocks

/-! ## The result arrays as functions of the arguments, and what each point writes back -/

/-- Block `q` of the first result array: tile `q`'s masked sum in every lane; of the second: its mask count. -/
def G4 (c : Dev nD) : S64x1x128.Idx → EReal := fun j =>
  tileNum (xArr m c) (cbArr m c) (gArr m c) (lArr m c) ⟨(j 0).val, by have h : (j 0).val < 64 := (j 0).isLt; exact h⟩
def G5 (c : Dev nD) : S64x1x128.Idx → EReal := fun j =>
  tileDen (lArr m c) ⟨(j 0).val, by have h : (j 0).val < 64 := (j 0).isLt; exact h⟩

/-- A block index of a result window is `(0, 0, l)`. -/
theorem lane_idx (y : S1x1x128.Idx) : y = ix3 (0 : Fin 1) (0 : Fin 1) (⟨(y 2).val, by have h : (y 2).val < 128 := (y 2).isLt; exact h⟩ : Fin 128) := by
  funext ax; apply Fin.ext
  match ax with
  | ⟨0, _⟩ => show (y 0).val = 0; have h : (y 0).val < 1 := (y 0).isLt; omega
  | ⟨1, _⟩ => show (y 1).val = 0; have h : (y 1).val < 1 := (y 1).isLt; omega
  | ⟨2, _⟩ => rfl

/-- WHAT POINT `t` WRITES BACK into the first result array is block `t` of `G4`. -/
theorem flushed4_eq (hO : Ok m) (c : Dev nD) (t : Fin (cfgM m hO).N) :
    (dats m hO 0 c).flushed 4 t = (((cfgM m hO).win 4).blk t).view.read (Elt Ideal) (G4 m c) := by
  show ((cfgM m hO).win 4).cut (grid0.coords t) ((dats m hO 0 c).after 4 t) = _
  rw [after0_4]
  unfold outsAt0
  dsimp only
  refine funext fun (y : S1x1x128.Idx) => ?_
  show outBlk4 m hO c t y = G4 m c ((((cfg0 (adm m hO)).win 4).blk t).view.emb y)
  rw [outBlk4_eq, lane_idx y, emb4 (adm m hO) t _, tile4 m hO c t _]
  rfl

/-- WHAT POINT `t` WRITES BACK into the second result array is block `t` of `G5`. -/
theorem flushed5_eq (hO : Ok m) (c : Dev nD) (t : Fin (cfgM m hO).N) :
    (dats m hO 0 c).flushed 5 t = (((cfgM m hO).win 5).blk t).view.read (Elt Ideal) (G5 m c) := by
  show ((cfgM m hO).win 5).cut (grid0.coords t) ((dats m hO 0 c).after 5 t) = _
  rw [after0_5]
  unfold outsAt0
  dsimp only
  refine funext fun (y : S1x1x128.Idx) => ?_
  show outBlk5 m hO c t y = G5 m c ((((cfg0 (adm m hO)).win 5).blk t).view.emb y)
  rw [outBlk5_eq, lane_idx y, emb5 (adm m hO) t _, tile5 m hO c t _]
  rfl

end Cert.KernelIdeal.KVal

end
-- ==== Proof.KCover.lean ====
/-
  The two result arrays are tiled by the blocks the 64 grid points write back: index (q, 0, l) lies in point q's block.
-/
import proofs.«411264_j42391327212291_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable {F : FTy → Type} [FloatOps F]

/-- The first result array's index map sends grid point `t` to block `(t, 0, 0)`. -/
theorem idx_facts4 : ∀ t : Fin grid0.N, cc0_transform_4 (grid0.coords t) 0 = t.val
    ∧ cc0_transform_4 (grid0.coords t) 1 = 0 ∧ cc0_transform_4 (grid0.coords t) 2 = 0 :=
  (by decide +kernel : ∀ t : Fin grid0.N, cc0_transform_4 (grid0.coords t) 0 = t.val
    ∧ cc0_transform_4 (grid0.coords t) 1 = 0 ∧ cc0_transform_4 (grid0.coords t) 2 = 0)

/-- The second result array's index map does the same. -/
theorem idx_facts5 : ∀ t : Fin grid0.N, cc0_transform_5 (grid0.coords t) 0 = t.val
    ∧ cc0_transform_5 (grid0.coords t) 1 = 0 ∧ cc0_transform_5 (grid0.coords t) 2 = 0 :=
  (by decide +kernel : ∀ t : Fin grid0.N, cc0_transform_5 (grid0.coords t) 0 = t.val
    ∧ cc0_transform_5 (grid0.coords t) 1 = 0 ∧ cc0_transform_5 (grid0.coords t) 2 = 0)

/-- Every index of the first result array is in the block some grid point writes back, at any contents of the table. -/
theorem cover4 (a : (pcfg0 (F := F)).Adm) (i : S64x1x128.Idx) :
    ∃ t : Fin (cfg0 a).N, ((cfg0 a).win 4).flush t = true ∧ i ∈ (((cfg0 a).win 4).blk t).view.set := by
  have h0 : (i 0).val < 64 := (i 0).isLt
  have h1 : (i 1).val < 1 := (i 1).isLt
  have h2 : (i 2).val < 128 := (i 2).isLt
  obtain ⟨t, ht⟩ : ∃ t : Fin grid0.N, t.val = (i 0).val := ⟨⟨(i 0).val, by rw [N_0]; exact h0⟩, rfl⟩
  obtain ⟨e0, e1, e2⟩ := idx_facts4 t
  have hb : ∀ b : Fin 3, cc0_transform_4 (grid0.coords t) b * S1x1x128.size b ≤ (i b).val
      ∧ (i b).val < cc0_transform_4 (grid0.coords t) b * S1x1x128.size b + S1x1x128.size b := by
    intro b
    match b with
    | ⟨0, _⟩ =>
      show cc0_transform_4 (grid0.coords t) 0 * 1 ≤ (i 0).val ∧ (i 0).val < cc0_transform_4 (grid0.coords t) 0 * 1 + 1
      omega
    | ⟨1, _⟩ =>
      show cc0_transform_4 (grid0.coords t) 1 * 1 ≤ (i 1).val ∧ (i 1).val < cc0_transform_4 (grid0.coords t) 1 * 1 + 1
      omega
    | ⟨2, _⟩ =>
      show cc0_transform_4 (grid0.coords t) 2 * 128 ≤ (i 2).val ∧ (i 2).val < cc0_transform_4 (grid0.coords t) 2 * 128 + 128
      omega
  refine ⟨t, flush0_4 a t, ?_⟩
  exact Eq.mpr (congrArg (fun s => i ∈ s) (View.set_slice_whole main_v12_0 (((cfg0 a).win 4).rect t)))
    (Rect.mem_set_unit.mpr hb)

/-- The same for the second result array. -/
theorem cover5 (a : (pcfg0 (F := F)).Adm) (i : S64x1x128.Idx) :
    ∃ t : Fin (cfg0 a).N, ((cfg0 a).win 5).flush t = true ∧ i ∈ (((cfg0 a).win 5).blk t).view.set := by
  have h0 : (i 0).val < 64 := (i 0).isLt
  have h1 : (i 1).val < 1 := (i 1).isLt
  have h2 : (i 2).val < 128 := (i 2).isLt
  obtain ⟨t, ht⟩ : ∃ t : Fin grid0.N, t.val = (i 0).val := ⟨⟨(i 0).val, by rw [N_0]; exact h0⟩, rfl⟩
  obtain ⟨e0, e1, e2⟩ := idx_facts5 t
  have hb : ∀ b : Fin 3, cc0_transform_5 (grid0.coords t) b * S1x1x128.size b ≤ (i b).val
      ∧ (i b).val < cc0_transform_5 (grid0.coords t) b * S1x1x128.size b + S1x1x128.size b := by
    intro b
    match b with
    | ⟨0, _⟩ =>
      show cc0_transform_5 (grid0.coords t) 0 * 1 ≤ (i 0).val ∧ (i 0).val < cc0_transform_5 (grid0.coords t) 0 * 1 + 1
      omega
    | ⟨1, _⟩ =>
      show cc0_transform_5 (grid0.coords t) 1 * 1 ≤ (i 1).val ∧ (i 1).val < cc0_transform_5 (grid0.coords t) 1 * 1 + 1
      omega
    | ⟨2, _⟩ =>
      show cc0_transform_5 (grid0.coords t) 2 * 128 ≤ (i 2).val ∧ (i 2).val < cc0_transform_5 (grid0.coords t) 2 * 128 + 128
      omega
  refine ⟨t, flush0_5 a t, ?_⟩
  exact Eq.mpr (congrArg (fun s => i ∈ s) (View.set_slice_whole main_v12_1 (((cfg0 a).win 5).rect t)))
    (Rect.mem_set_unit.mpr hb)

end Cert.KernelIdeal.KVal

end
-- ==== Proof.KTail.lean ====
/-
  The lines after the region: lane 0 of each of the 64 blocks of the two result arrays is summed, and the first sum is divided by the second plus a small constant.
-/
import proofs.«411264_j42391327212291_3_alg».proof.Proof.Gen.KernelIdeal.Frame
import proofs.«411264_j42391327212291_3_alg».proof.Proof.Spec
import Idealize.ShloMosaic.Lib.Pipeline.Value
import Idealize.ShloMosaic.Lib.ValueIdx
import Idealize.ShloMosaic.Lib.ValueIdxRank1
import Idealize.ShloMosaic.Lib.ValueLayout
import Idealize.ShloMosaic.Lib.StableHlo.Run
import Idealize.ShloMosaic.PureOps.Ideal.Laws
import Idealize.ShloMosaic.Lib.Tactic
import proofs.«411264_j42391327212291_3_alg».proof.Proof.LibBlockSum

noncomputable section

open scoped BigOperators

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

/-! ## One result array: lane 0 of each of its 64 blocks, summed -/

/-- Entry `q` of the reshaped slice is lane 0 of block `q`. -/
theorem lane_apply (A : S64x1x128.Idx → EReal) (q : Fin 64) :
    shapeCast S64 (extractStridedSlice S64x1x1 ![0, 0, 0] A slices_S64x1x128_S64x1x1_0_0_0) shapeCasts_S64x1x1_S64 (ix1 q)
      = A (ix3 q (0 : Fin 1) (0 : Fin 128)) := by
  refine (shapeCast_apply _ shapeCasts_S64x1x1_S64 (ix1 q) (ix3 q (0 : Fin 1) (0 : Fin 1)) ?_).trans ?_
  · rw [Shape.rowMajor_val_three, Shape.rowMajor_val_one]
    show (q.val * 1 + 0) * 1 + 0 = q.val
    omega
  · exact extractStridedSlice_apply _ A _ _ (ix3 q (0 : Fin 1) (0 : Fin 128)) (fun a => match a with
      | ⟨0, _⟩ => by show q.val = 0 + q.val; omega
      | ⟨1, _⟩ => rfl
      | ⟨2, _⟩ => rfl)

/-- The host sum from zero of the reshaped slice is the sum over the 64 blocks of lane 0. -/
theorem sum_lane (A : S64x1x128.Idx → EReal) (i : S_.Idx) :
    Host.reduceAdd (F := Ideal) (φ := .f32)
        (shapeCast S64 (extractStridedSlice S64x1x1 ![0, 0, 0] A slices_S64x1x128_S64x1x1_0_0_0) shapeCasts_S64x1x1_S64)
        (constant (F := Ideal) S_ .f32 0x00000000#32) reducesTo_S64_S_d0 h_S_ i
      = ∑ q : Fin 64, A (ix3 q (0 : Fin 1) (0 : Fin 128)) := by
  simp only [Host.reduceAdd, Ideal.hostReduceAdd_def]
  rw [Ideal.hostReduceAdd_total reducesTo_S64_S_d0 (fun b => b.elim0), constant_apply, Ideal.ofBits_zero_f32, zero_add]
  refine (Equiv.sum_comp (idxEquiv1 (n := 64)).symm _).symm.trans ?_
  exact Finset.sum_congr rfl fun q _ => lane_apply A q

/-! ## The result -/

/-- The program's result after the lines that follow the region, from what the two result arrays hold after it. -/
theorem tail_eq (hO : Ok m) (c : Dev nD) (A4 A5 : S64x1x128.Idx → EReal)
    (h4 : (dats m hO 0 c).arrAt 4 (cfgM m hO).N = A4) (h5 : (dats m hO 0 c).arrAt 5 (cfgM m hO).N = A5) :
    Pipeline.afterTail pcfgs (fun _ => adm m hO) (dats m hO) 0 (V0 m) [hostOps1] c main_v20
      = fun _ => Ideal.div (∑ q : Fin 64, A4 (ix3 q (0 : Fin 1) (0 : Fin 128)))
          ((∑ q : Fin 64, A5 (ix3 q (0 : Fin 1) (0 : Fin 128))) + Cert.VQ.tinyLit) := by
  unfold Pipeline.afterTail
  show StableHlo.after hostOps1 _ (Proc.devRef .tc main_v20) = _
  after_results
  have e4 : Pipeline.withArrays (Pipeline.pin pcfgs (fun _ => adm m hO) 0).spec c (V0 m c)
      (fun w => (dats m hO 0 c).arrAt w (Pipeline.pin pcfgs (fun _ => adm m hO) 0).N) (Proc.devRef .tc main_v12_0) = A4 :=
    (Pipeline.withArrays_arr spec0 winFacts0.arr_inj c _ _ 4).trans h4
  have e5 : Pipeline.withArrays (Pipeline.pin pcfgs (fun _ => adm m hO) 0).spec c (V0 m c)
      (fun w => (dats m hO 0 c).arrAt w (Pipeline.pin pcfgs (fun _ => adm m hO) 0).N) (Proc.devRef .tc main_v12_1) = A5 :=
    (Pipeline.withArrays_arr spec0 winFacts0.arr_inj c _ _ 5).trans h5
  rw [e4, e5]
  funext i
  show Ideal.div
      (Host.reduceAdd (F := Ideal) (φ := .f32)
        (shapeCast S64 (extractStridedSlice S64x1x1 ![0, 0, 0] A4 slices_S64x1x128_S64x1x1_0_0_0) shapeCasts_S64x1x1_S64)
        (constant (F := Ideal) S_ .f32 0x00000000#32) reducesTo_S64_S_d0 h_S_ i)
      (Host.reduceAdd (F := Ideal) (φ := .f32)
        (shapeCast S64 (extractStridedSlice S64x1x1 ![0, 0, 0] A5 slices_S64x1x128_S64x1x1_0_0_0) shapeCasts_S64x1x1_S64)
        (constant (F := Ideal) S_ .f32 0x00000000#32) reducesTo_S64_S_d0 h_S_ i
        + Ideal.ofBits .f32 0x322BCC77#32) = _
  rw [sum_lane, sum_lane]
  rfl

end Cert.KernelIdeal.KVal

end
-- ==== Proof.KRun.lean ====
/-
  The kernel's run, read: the two result arrays end holding the tiles' sums, the lines after the region add the 64 tiles of each and divide, and regrouping the rows tile by tile gives the loss over all 32768 rows.
-/
import proofs.«411264_j42391327212291_3_alg».proof.Proof.Gen.KernelIdeal.Frame
import proofs.«411264_j42391327212291_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«411264_j42391327212291_3_alg».proof.Proof.KTile
import proofs.«411264_j42391327212291_3_alg».proof.Proof.KCover
import proofs.«411264_j42391327212291_3_alg».proof.Proof.KTail
import proofs.«411264_j42391327212291_3_alg».proof.Proof.LibBlockSum

noncomputable section

open scoped BigOperators

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

open Cert.VQ (rowInMin featRow codeRow tgtRow maskOf lossInMin lossOf)

/-- The result arrays after the region: every index is in the block some point writes back, so each array is its
    function of the arguments. -/
theorem final4 (hO : Ok m) (c : Dev nD) : (dats m hO 0 c).arrAt 4 (cfgM m hO).N = G4 m c :=
  (dats m hO 0 c).arrAt_eq_of_cover 4 (G4 m c) (fun t _ => flushed4_eq m hO c t) (cover4 (adm m hO))
theorem final5 (hO : Ok m) (c : Dev nD) : (dats m hO 0 c).arrAt 5 (cfgM m hO).N = G5 m c :=
  (dats m hO 0 c).arrAt_eq_of_cover 5 (G5 m c) (fun t _ => flushed5_eq m hO c t) (cover5 (adm m hO))

/-- Lane 0 of block `q` of each array is tile `q`'s sum. -/
theorem G4_lane (c : Dev nD) (q : Fin 64) :
    G4 m c (ix3 q (0 : Fin 1) (0 : Fin 128)) = tileNum (xArr m c) (cbArr m c) (gArr m c) (lArr m c) q := rfl
theorem G5_lane (c : Dev nD) (q : Fin 64) : G5 m c (ix3 q (0 : Fin 1) (0 : Fin 128)) = tileDen (lArr m c) q := rfl

/-- The 64 tiles' sums are the sum over all 32768 rows. -/
theorem sum_tiles (f : Fin 32768 → EReal) : ∑ q : Fin 64, ∑ r : Fin 512, f (rowOf q r) = ∑ n : Fin 32768, f n :=
  (Cert.LibBlockSum.sum_blocks (B := 64) (R := 512) (N := 32768) (by norm_num) f).symm

/-- The program's result: the loss of the argument arrays, cross term inside and softmax through the minimum. -/
theorem result_eq (hO : Ok m) (c : Dev nD) :
    Pipeline.afterTail pcfgs (fun _ => adm m hO) (dats m hO) 0 (V0 m) [hostOps1] c main_v20
      = fun _ => lossInMin (xArr m c) (cbArr m c) (gArr m c) (lArr m c) := by
  rw [tail_eq m hO c (G4 m c) (G5 m c) (final4 m hO c) (final5 m hO c)]
  funext _
  unfold Cert.VQ.lossInMin Cert.VQ.lossOf
  simp only [G4_lane, G5_lane]
  unfold tileNum tileDen
  rw [sum_tiles (fun n => rowInMin (featRow (xArr m c) n) (codeRow (cbArr m c)) (tgtRow (gArr m c) n) * maskOf (lArr m c) n),
    sum_tiles (fun n => maskOf (lArr m c) n)]

/-- THE RUN, READ: every weakly fair execution ends with the result at that loss and the four arguments unchanged. -/
theorem run (ρ : Dev nD → PrngReg) (hO : Ok m) :
    θ_run defs (onTc (τ := τ) (main (F := Ideal))) ⟨m, fun _ => 0, ρ⟩ (fun r => ∀ c : Dev nD,
      r.2.mem ((c.tc : Thread nD τ).loc main_v20) = (fun _ => lossInMin (xArr m c) (cbArr m c) (gArr m c) (lArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v20 (by decide : main_v20 ∈ Pipeline.restRefs sig spec0)).trans (result_eq m hO c),
      ((h c).1 0).trans (((dats m hO 0 c).arrAt_in 0 rfl _).trans ((A_eq m hO c 0).trans (V_main_arg0 m c))),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KernelIdeal.KVal

end
-- ==== Proof.lean ====
/-
  The kernel computes a vector-quantisation loss over 32768 rows (8 batches of 4096 frames, 512 columns) against a
  codebook of 4096 rows: per row the distances to every codebook row, the softmax of the negated distances, the
  weighted reconstruction, the mean squared difference to a gathered target row; then the masked mean over the rows.
  It does so tile by tile (64 tiles of 512 rows), each tile leaving its masked sum and its mask count, which the
  lines after the launch add up and divide. The reference computes the same over all rows at once.

  The two agree over the extended reals when the features and the codebook hold real numbers: the kernel carries the
  factor -2 of the cross term inside the sum of products where the reference multiplies the sum by 2 and subtracts
  (equal on the reals); the kernel takes the softmax through the row's minimum distance where the reference takes it
  through the maximum of the negated distances over the temperature 1 (equal on all extended reals); and a sum over
  32768 rows is the sum over 64 tiles of the sums over each tile's 512 rows. The change of float format of the
  codebook is the identity on the extended reals, and the gather of the target rows and the length mask are the same
  integer computations in both programs.
-/
import proofs.«411264_j42391327212291_3_alg».proof.Defs
import proofs.«411264_j42391327212291_3_alg».proof.Proof.Gen.Kernel
import proofs.«411264_j42391327212291_3_alg».proof.Proof.Gen.Kernel.Frame
import proofs.«411264_j42391327212291_3_alg».proof.Proof.Gen.KernelIdeal
import proofs.«411264_j42391327212291_3_alg».proof.Proof.Gen.KernelIdeal.Frame
import proofs.«411264_j42391327212291_3_alg».proof.Proof.Gen.ReferenceIdeal
import proofs.«411264_j42391327212291_3_alg».proof.Proof.Gen.ReferenceIdeal.Run
import proofs.«411264_j42391327212291_3_alg».proof.Proof.Gen.ReferenceIdeal.Read
import proofs.«411264_j42391327212291_3_alg».proof.Proof.Gen.Pre_finite_inputs
import proofs.«411264_j42391327212291_3_alg».proof.Proof.Spec
import proofs.«411264_j42391327212291_3_alg».proof.Proof.Algebra
import proofs.«411264_j42391327212291_3_alg».proof.Proof.Finite
import proofs.«411264_j42391327212291_3_alg».proof.Proof.RefValue
import proofs.«411264_j42391327212291_3_alg».proof.Proof.KRun
import Idealize.ShloMosaic.Adequacy
import Idealize.ShloMosaic.Init

noncomputable section

namespace Cert.Proof

open Idealize.ShloMosaic Idealize.ShloMosaic.TcCoe Idealize.SL.Sem

/-- The gathered target rows are one array in the two programs: the same gather of the codebook rows at the same
    index chain over the codes. -/
theorem tgt_eq (x1 : Cert.VQ.SC.Idx → EReal) (x2 : IVec Cert.KernelIdeal.S8x4096 32) :
    Cert.ReferenceIdeal.Read.val_main_v50 (F := Ideal) x1 x2 = Cert.KernelIdeal.KVal.tgtK x1 x2 := by
  unfold Cert.ReferenceIdeal.Read.val_main_v50 Cert.ReferenceIdeal.Read.val_main_v49 Cert.ReferenceIdeal.Read.val_main_v48
    Cert.ReferenceIdeal.Read.val_main_v47 Cert.ReferenceIdeal.Read.val_main_v46 Cert.ReferenceIdeal.Read.val_main_c_8
    Cert.ReferenceIdeal.Read.val_main_v45 Cert.ReferenceIdeal.Read.val_main_v44 Cert.ReferenceIdeal.Read.val_main_c_7
    Cert.ReferenceIdeal.Read.val_main_v43 Cert.KernelIdeal.KVal.tgtK
  rfl

/-- The table the kernel's index maps could read constrains nothing: none of them reads it. -/
theorem frame_k : Cert.frame_Kernel := fun m ρ _ => Cert.Kernel.Gen.frame m ρ trivial
theorem frame_ki : Cert.frame_KernelIdeal := fun m ρ _ => Cert.KernelIdeal.Gen.frame m ρ trivial
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays: the kernel in the form with the cross term inside and the
    softmax through the minimum, the reference in the other form; the precondition makes the features and the
    codebook real, where the two forms agree. -/
theorem algebraic : Cert.algebraic_KernelIdeal_ReferenceIdeal := by
  intro m ρ m' ρ' hpre hagree
  have hO : Cert.KernelIdeal.Gen.Ok m := trivial
  refine ⟨fun c => fun _ => Cert.VQ.lossInMin (Cert.KernelIdeal.KVal.xArr m c) (Cert.KernelIdeal.KVal.cbArr m c)
    (Cert.KernelIdeal.KVal.gArr m c) (Cert.KernelIdeal.KVal.lArr m c), Cert.KernelIdeal.KVal.run m ρ hO, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  rw [(hagree c).1, (hagree c).2.1, (hagree c).2.2.1, (hagree c).2.2.2]
  obtain ⟨hX, hC⟩ := Cert.Finite.real_of_pre _ _ _ _ (hpre c)
  funext _
  rw [tgt_eq]
  exact (Cert.VQ.lossInMin_eq_lossOutMax (Cert.KernelIdeal.KVal.xArr m c) (Cert.KernelIdeal.KVal.cbArr m c)
    (Cert.KernelIdeal.KVal.gArr m c) (Cert.KernelIdeal.KVal.lArr m c) hX hC).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
